-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v117_0)) (v1 : (c : Dev Cert.KernelIdeal.nD) → Buf (Elt Ideal) ((c.tc : Thread Cert.KernelIdeal.nD Cert.KernelIdeal.τ).loc Cert.KernelIdeal.main_v121)) (v2 : (c : Dev Cert.KernelIdeal.nD) → Buf (Elt Ideal) ((c.tc : Thread Cert.KernelIdeal.nD Cert.KernelIdeal.τ).loc Cert.KernelIdeal.main_v120)) (v3 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117_0) = v0 c
          ∧ r.2.mem ((c.tc : Thread Cert.KernelIdeal.nD Cert.KernelIdeal.τ).loc Cert.KernelIdeal.main_v121) = v1 c
          ∧ r.2.mem ((c.tc : Thread Cert.KernelIdeal.nD Cert.KernelIdeal.τ).loc Cert.KernelIdeal.main_v120) = v2 c
          ∧ r.2.mem ((c.tc : Thread Cert.KernelIdeal.nD Cert.KernelIdeal.τ).loc Cert.KernelIdeal.main_v115) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel

variable [Facts]

def fn {F : FTy → Type} [FloatOps F] (main_arg0 : FVec F S1000000x3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  main_v3
-- ==== Kernel.lean ====
abbrev S1000000x3 : Shape := ⟨2, ![1000000, 3]⟩
abbrev S3 : Shape := ⟨1, ![3]⟩
abbrev S1x3 : Shape := ⟨2, ![1, 3]⟩
abbrev S_ : Shape := ⟨0, ![]⟩
abbrev S1000000 : Shape := ⟨1, ![1000000]⟩
abbrev S1000000x1 : Shape := ⟨2, ![1000000, 1]⟩
abbrev S1 : Shape := ⟨1, ![1]⟩
abbrev S999999 : Shape := ⟨1, ![999999]⟩
abbrev S500000x32x3 : Shape := ⟨3, ![500000, 32, 3]⟩
abbrev S1000000x2 : Shape := ⟨2, ![1000000, 2]⟩
abbrev S500000 : Shape := ⟨1, ![500000]⟩
abbrev S500000x3 : Shape := ⟨2, ![500000, 3]⟩
abbrev S500000x1 : Shape := ⟨2, ![500000, 1]⟩
abbrev S500000x32x6 : Shape := ⟨3, ![500000, 32, 6]⟩
abbrev S500000x32 : Shape := ⟨2, ![500000, 32]⟩
abbrev S10000x32x3 : Shape := ⟨3, ![10000, 32, 3]⟩
abbrev S10000x1 : Shape := ⟨2, ![10000, 1]⟩
abbrev S10000x32x6 : Shape := ⟨3, ![10000, 32, 6]⟩
abbrev S10000x32 : Shape := ⟨2, ![10000, 32]⟩
abbrev S10000x3 : Shape := ⟨2, ![10000, 3]⟩
abbrev S10000x1x3 : Shape := ⟨3, ![10000, 1, 3]⟩
abbrev S10000x32x1 : Shape := ⟨3, ![10000, 32, 1]⟩
abbrev S500000x4 : Shape := ⟨2, ![500000, 4]⟩

abbrev nBuf : Space → Nat
  | .hbm => 173
  | .vmem => 8
  | .smem => 0
  | _ => 0

abbrev hbmTy0_0 (i : Nat) : BufTy := match i % 128 with
  | 0 => ⟨S1000000x3, .f32⟩
  | 1 => ⟨S3, .f32⟩
  | 2 => ⟨S3, .f32⟩
  | 3 => ⟨S3, .f32⟩
  | 4 => ⟨S1x3, .f32⟩
  | 5 => ⟨S1000000x3, .f32⟩
  | 6 => ⟨S1000000x3, .f32⟩
  | 7 => ⟨S1x3, .f32⟩
  | 8 => ⟨S1000000x3, .f32⟩
  | 9 => ⟨S1000000x3, .f32⟩
  | 10 => ⟨S1000000x3, .f32⟩
  | 11 => ⟨S1000000x3, .i32⟩
  | 12 => ⟨S3, .f32⟩
  | 13 => ⟨S3, .f32⟩
  | 14 => ⟨S1x3, .f32⟩
  | 15 => ⟨S1000000x3, .f32⟩
  | 16 => ⟨S1000000x3, .i1⟩
  | 17 => ⟨S1x3, .f32⟩
  | 18 => ⟨S1000000x3, .f32⟩
  | 19 => ⟨S1000000x3, .i1⟩
  | 20 => ⟨S1000000x3, .i1⟩
  | 21 => ⟨S_, .i1⟩
  | 22 => ⟨S1000000, .i1⟩
  | 23 => ⟨S1000000x1, .i32⟩
  | 24 => ⟨S1000000, .i32⟩
  | 25 => ⟨S_, .i32⟩
  | 26 => ⟨S1000000, .i32⟩
  | 27 => ⟨S1000000, .i32⟩
  | 28 => ⟨S1000000x1, .i32⟩
  | 29 => ⟨S1000000, .i32⟩
  | 30 => ⟨S1000000, .i32⟩
  | 31 => ⟨S_, .i32⟩
  | 32 => ⟨S1000000, .i32⟩
  | 33 => ⟨S1000000, .i32⟩
  | 34 => ⟨S1000000x1, .i32⟩
  | 35 => ⟨S1000000, .i32⟩
  | 36 => ⟨S1000000, .i32⟩
  | 37 => ⟨S_, .i32⟩
  | 38 => ⟨S_, .i32⟩
  | 39 => ⟨S1000000, .i32⟩
  | 40 => ⟨S1000000, .i32⟩
  | 41 => ⟨S1000000, .i32⟩
  | 42 => ⟨S1000000, .i32⟩
  | 43 => ⟨S1000000, .i32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x3, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x3, .i32⟩
  | 71 => ⟨S_, .i32⟩
  | 72 => ⟨S1000000, .i32⟩
  | 73 => ⟨S1000000, .i1⟩
  | 74 => ⟨S_, .i1⟩
  | 75 => ⟨S1, .i1⟩
  | 76 => ⟨S999999, .i32⟩
  | 77 => ⟨S999999, .i32⟩
  | 78 => ⟨S999999, .i1⟩
  | 79 => ⟨S1000000, .i1⟩
  | 80 => ⟨S1000000, .i32⟩
  | 81 => ⟨S_, .i32⟩
  | 82 => ⟨S_, .i32⟩
  | 83 => ⟨S1000000, .i32⟩
  | 84 => ⟨S_, .i32⟩
  | 85 => ⟨S1000000, .i32⟩
  | 86 => ⟨S1000000, .i32⟩
  | 87 => ⟨S1000000, .i32⟩
  | 88 => ⟨S_, .i32⟩
  | 89 => ⟨S_, .i32⟩
  | 90 => ⟨S1000000, .i32⟩
  | 91 => ⟨S1000000, .i32⟩
  | 92 => ⟨S_, .i32⟩
  | 93 => ⟨S_, .i32⟩
  | 94 => ⟨S1000000, .i32⟩
  | 95 => ⟨S1000000, .i32⟩
  | 96 => ⟨S_, .i32⟩
  | 97 => ⟨S_, .i32⟩
  | 98 => ⟨S1000000, .i32⟩
  | 99 => ⟨S1000000, .i32⟩
  | 100 => ⟨S_, .f32⟩
  | 101 => ⟨S500000x32x3, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x1, .i32⟩
  | 118 => ⟨S1000000x2, .i32⟩
  | 119 => ⟨S500000x32x3, .f32⟩
  | 120 => ⟨S_, .i32⟩
  | 121 => ⟨S1000000, .i32⟩
  | 122 => ⟨S1000000, .i1⟩
  | 123 => ⟨S1000000, .i1⟩
  | 124 => ⟨S1000000, .i32⟩
  | 125 => ⟨S_, .i32⟩
  | 126 => ⟨S500000, .i32⟩
  | 127 => ⟨S_, .i32⟩
  | _ => ⟨S1000000x3, .f32⟩

abbrev hbmTy0_1 (i : Nat) : BufTy := match i % 128 with
  | 0 => ⟨S1000000, .i32⟩
  | 1 => ⟨S1000000, .i1⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S500000, .i32⟩
  | 8 => ⟨S1000000, .i1⟩
  | 9 => ⟨S_, .i32⟩
  | 10 => ⟨S_, .i32⟩
  | 11 => ⟨S1000000, .i32⟩
  | 12 => ⟨S1000000, .i32⟩
  | 13 => ⟨S_, .i32⟩
  | 14 => ⟨S500000x3, .i32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S500000x3, .i32⟩
  | 24 => ⟨S500000x3, .f32⟩
  | 25 => ⟨S1x3, .f32⟩
  | 26 => ⟨S500000x3, .f32⟩
  | 27 => ⟨S500000x3, .f32⟩
  | 28 => ⟨S_, .f32⟩
  | 29 => ⟨S3, .f32⟩
  | 30 => ⟨S3, .f32⟩
  | 31 => ⟨S3, .f32⟩
  | 32 => ⟨S1x3, .f32⟩
  | 33 => ⟨S500000x3, .f32⟩
  | 34 => ⟨S500000x3, .f32⟩
  | 35 => ⟨S500000x1, .i32⟩
  | 36 => ⟨S500000x32x6, .f32⟩
  | 37 => ⟨S500000x32, .i32⟩
  | 38 => ⟨S_, .i32⟩
  | 39 => ⟨S500000x32, .i32⟩
  | 40 => ⟨S500000x32, .i1⟩
  | 41 => ⟨S500000x32, .i1⟩
  | 42 => ⟨S_, .i32⟩
  | 43 => ⟨S_, .i32⟩
  | 44 => ⟨S500000x4, .i32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | .local _ .vmem, ⟨0, _⟩ => ⟨S10000x32x3, .f32⟩
  | .local _ .vmem, ⟨1, _⟩ => ⟨S10000x32x3, .f32⟩
  | .local _ .vmem, ⟨2, _⟩ => ⟨S10000x1, .i32⟩
  | .local _ .vmem, ⟨3, _⟩ => ⟨S10000x1, .i32⟩
  | .local _ .vmem, ⟨4, _⟩ => ⟨S10000x32x6, .f32⟩
  | .local _ .vmem, ⟨5, _⟩ => ⟨S10000x32x6, .f32⟩
  | .local _ .vmem, ⟨6, _⟩ => ⟨S10000x32, .i32⟩
  | .local _ .vmem, ⟨7, _⟩ => ⟨S10000x32, .i32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_4 : Ref sig .tc := ⟨.hbm, 37, rfl⟩
abbrev main_call0_v0 : Ref sig .tc := ⟨.hbm, 38, rfl⟩
abbrev main_call0_v1 : Ref sig .tc := ⟨.hbm, 39, rfl⟩
abbrev main_v30 : Ref sig .tc := ⟨.hbm, 40, rfl⟩
abbrev main_call1_v0 : Ref sig .tc := ⟨.hbm, 41, rfl⟩
abbrev main_call1_v1_0 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call2_call0_c : Ref sig .tc := ⟨.hbm, 81, rfl⟩
abbrev main_call2_call0_v0 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_14 : Ref sig .tc := ⟨.hbm, 88, rfl⟩
abbrev main_call3_v0 : Ref sig .tc := ⟨.hbm, 89, rfl⟩
abbrev main_call3_v1 : Ref sig .tc := ⟨.hbm, 90, rfl⟩
abbrev main_v65 : Ref sig .tc := ⟨.hbm, 91, rfl⟩
abbrev main_call4_c : Ref sig .tc := ⟨.hbm, 92, rfl⟩
abbrev main_call4_v0 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_call5_v0 : Ref sig .tc := ⟨.hbm, 97, rfl⟩
abbrev main_call5_v1 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_c_17 : Ref sig .tc := ⟨.hbm, 102, rfl⟩
abbrev main_v70 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_19 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_22 : Ref sig .tc := ⟨.hbm, 125, rfl⟩
abbrev main_v88 : Ref sig .tc := ⟨.hbm, 126, rfl⟩
abbrev main_c_23 : Ref sig .tc := ⟨.hbm, 127, rfl⟩
abbrev main_v89 : Ref sig .tc := ⟨.hbm, 128, rfl⟩
abbrev main_v90 : Ref sig .tc := ⟨.hbm, 129, rfl⟩
abbrev main_c_24 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_25 : Ref sig .tc := ⟨.hbm, 137, rfl⟩
abbrev main_call6_v0 : Ref sig .tc := ⟨.hbm, 138, rfl⟩
abbrev main_call6_v1 : Ref sig .tc := ⟨.hbm, 139, rfl⟩
abbrev main_v97 : Ref sig .tc := ⟨.hbm, 140, rfl⟩
abbrev main_c_26 : Ref sig .tc := ⟨.hbm, 141, rfl⟩
abbrev main_v98 : Ref sig .tc := ⟨.hbm, 142, rfl⟩
abbrev main_c_27 : Ref sig .tc := ⟨.hbm, 143, rfl⟩
abbrev main_v99 : Ref sig .tc := ⟨.hbm, 144, rfl⟩
abbrev main_v100 : Ref sig .tc := ⟨.hbm, 145, rfl⟩
abbrev main_c_28 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_29 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117_0 : Ref sig .tc := ⟨.hbm, 164, rfl⟩
abbrev main_v117_1 : Ref sig .tc := ⟨.hbm, 165, rfl⟩
abbrev main_c_30 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_31 : Ref sig .tc := ⟨.hbm, 170, rfl⟩
abbrev main_call7_v0 : Ref sig .tc := ⟨.hbm, 171, rfl⟩
abbrev main_v121 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  reducesTo_S1000000x3_S1000000_d1 : S1000000x3.ReducesTo [1] S1000000
  h_S_ : 0 < S_.numel
  slices_S1000000x3_S1000000x1_0_0 : S1000000x3.Slices ![0, 0] S1000000x1
  shapeCasts_S1000000x1_S1000000 : S1000000x1.ShapeCasts S1000000
  bcast_S_S1000000 : S_.BroadcastsInDim S1000000 (![] : Fin 0 → Fin S1000000.rank)
  slices_S1000000x3_S1000000x1_0_1 : S1000000x3.Slices ![0, 1] S1000000x1
  slices_S1000000x3_S1000000x1_0_2 : S1000000x3.Slices ![0, 2] S1000000x1
  bcast_S1000000_S1000000x1_0 : S1000000.BroadcastsInDim S1000000x1 (![0] : Fin 1 → Fin S1000000x1.rank)
  bcast_S_S1 : S_.BroadcastsInDim S1 (![] : Fin 0 → Fin S1.rank)
  slices_S1000000_S999999_1 : S1000000.Slices ![1] S999999
  slices_S1000000_S999999_0 : S1000000.Slices ![0] S999999
  concatenates_S1_S999999_S1000000_d0 : Shape.Concatenates [S1, S999999] S1000000 0
  natLt_1_32 : 1 < 32
  bcast_S_S_ : S_.BroadcastsInDim S_ (![] : Fin 0 → Fin S_.rank)
  reduceWindows_S1000000_S1000000_w1000000s1p999999_0 : S1000000.ReduceWindows (![1000000] : Fin 1 → Nat) ![1] ![999999] ![0] S1000000
  bcast_S_S500000x32x3 : S_.BroadcastsInDim S500000x32x3 (![] : Fin 0 → Fin S500000x32x3.rank)
  concatenates_S1000000x1_S1000000x1_S1000000x2_d1 : Shape.Concatenates [S1000000x1, S1000000x1] S1000000x2 1
  bcast_S_S500000 : S_.BroadcastsInDim S500000 (![] : Fin 0 → Fin S500000.rank)
  bcast_S_S500000x3 : S_.BroadcastsInDim S500000x3 (![] : Fin 0 → Fin S500000x3.rank)
  bcast_S1x3_S500000x3_0_1 : S1x3.BroadcastsInDim S500000x3 (![0, 1] : Fin 2 → Fin S500000x3.rank)
  bcast_S_S3 : S_.BroadcastsInDim S3 (![] : Fin 0 → Fin S3.rank)
  shapeCasts_S500000_S500000x1 : S500000.ShapeCasts S500000x1
  inb_S10000x32x3_S10000x32x3_0_0_0 : ∀ a, (![0, 0, 0] : Fin 3 → Nat) a + S10000x32x3.size a ≤ S10000x32x3.size a
  h_S10000x32x3 : 0 < S10000x32x3.numel
  shapeCasts_S10000x32x3_S10000x32x3 : S10000x32x3.ShapeCasts S10000x32x3
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  reduces_S10000x32x3_S10000x3 : S10000x32x3.Reduces [1] S10000x3
  broadcasts_S10000x1_S10000x3 : S10000x1.Broadcasts S10000x3
  shapeCasts_S10000x3_S10000x1x3 : S10000x3.ShapeCasts S10000x1x3
  iota_S10000x32_d1_w32 : S10000x32.Iotas .tc 32 [1]
  broadcasts_S10000x1_S10000x32 : S10000x1.Broadcasts S10000x32
  shapeCasts_S10000x32_S10000x32x1 : S10000x32.ShapeCasts S10000x32x1
  broadcasts_S10000x1x3_S10000x32x3 : S10000x1x3.Broadcasts S10000x32x3
  broadcasts_S10000x32x1_S10000x32x3 : S10000x32x1.Broadcasts S10000x32x3
  inb_S10000x32x6_S10000x32x3_0_0_0 : ∀ a, (![0, 0, 0] : Fin 3 → Nat) a + S10000x32x3.size a ≤ S10000x32x6.size a
  inb_S10000x32x6_S10000x32x3_0_0_3 : ∀ a, (![0, 0, 3] : Fin 3 → Nat) a + S10000x32x3.size a ≤ S10000x32x6.size a
  inb_S10000x32_S10000x32_0_0 : ∀ a, (![0, 0] : Fin 2 → Nat) a + S10000x32.size a ≤ S10000x32.size a
  h_S10000x32 : 0 < S10000x32.numel
  bcast_S_S500000x32 : S_.BroadcastsInDim S500000x32 (![] : Fin 0 → Fin S500000x32.rank)
  pads_S500000x3_S500000x4_000_100 : S500000x3.Pads (![0, 1] : Fin 2 → Nat) ![0, 0] ![0, 0] S500000x4
  gather_S1000000_S1000000x1_S1000000_n_0_n_n_0_1_1_wf : GatherDims.WF S1000000 S1000000x1 S1000000 [] [0] [] [0] [] 1 ![1]
  gather_S1000000x3_S1000000x1_S1000000x3_1_0_n_n_0_1_13_wf : GatherDims.WF S1000000x3 S1000000x1 S1000000x3 [1] [0] [] [0] [] 1 ![1, 3]
  scatter_S500000x32x3_S1000000x2_S1000000x3_1_01_01_1_wf : ScatterDims.WF S500000x32x3 S1000000x2 S1000000x3 [1] [0, 1] [0, 1] 1
  scatter_S500000_S1000000x1_S1000000_n_0_0_1_wf : ScatterDims.WF S500000 S1000000x1 S1000000 [] [0] [0] 1
  scatter_S500000x3_S1000000x1_S1000000x3_1_0_0_1_wf : ScatterDims.WF S500000x3 S1000000x1 S1000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32x3.size a ≤ S500000x32x3.size a
  hwx0_0 : ∀ i : grid0.Coords, EltTy.bits .f32 = 32 ∨ (Rect.block (s := S500000x32x3) S10000x32x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .i32 = 32 ∨ (Rect.block (s := S500000x1) S10000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32x6.size a ≤ S500000x32x6.size a
  hwx0_2 : ∀ i : grid0.Coords, EltTy.bits .f32 = 32 ∨ (Rect.block (s := S500000x32x6) S10000x32x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S500000x32.size a
  hwx0_3 : ∀ i : grid0.Coords, EltTy.bits .i32 = 32 ∨ (Rect.block (s := S500000x32) S10000x32.size (cc0_transform_3 i) (hinb0_3 i)).WholeWords (EltTy.packing .i32)

variable [Facts₀]

def comparator_i32_i32_d0 : BitVec 32 × BitVec 32 → BitVec 32 × BitVec 32 → BitVec 1 :=
  fun l r =>
    let v2 := IntOp.cmpi .slt l.1 r.1
    v2
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf
def gather_S1000000x3_S1000000x1_S1000000x3_1_0_n_n_0_1_13 : GatherDims S1000000x3 S1000000x1 S1000000x3 where
  offsetDims := [1]
  collapsedSliceDims := [0]
  operandBatchingDims := []
  startIndicesBatchingDims := []
  startIndexMap := [0]
  indexVectorDim := 1
  sliceSizes := ![1, 3]
  wf := gather_S1000000x3_S1000000x1_S1000000x3_1_0_n_n_0_1_13_wf
def scatter_S500000x32x3_S1000000x2_S1000000x3_1_01_01_1 : ScatterDims S500000x32x3 S1000000x2 S1000000x3 where
  updateWindowDims := [1]
  insertedWindowDims := [0, 1]
  scatterDimsToOperandDims := [0, 1]
  indexVectorDim := 1
  wf := scatter_S500000x32x3_S1000000x2_S1000000x3_1_01_01_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def scatter_S500000x3_S1000000x1_S1000000x3_1_0_0_1 : ScatterDims S500000x3 S1000000x1 S1000000x3 where
  updateWindowDims := [1]
  insertedWindowDims := [0]
  scatterDimsToOperandDims := [0]
  indexVectorDim := 1
  wf := scatter_S500000x3_S1000000x1_S1000000x3_1_0_0_1_wf

abbrev win0_0 : Pipeline.Window sig grid0 :=
  Pipeline.Window.ofSpec (Memref.whole main_v83) S10000x32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v116) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v117_0) S10000x32x6.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v117_1) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S3 : Shape := ⟨1, ![3]⟩
abbrev S1x3 : Shape := ⟨2, ![1, 3]⟩
abbrev S_ : Shape := ⟨0, ![]⟩
abbrev S1000000 : Shape := ⟨1, ![1000000]⟩
abbrev S1000000x1 : Shape := ⟨2, ![1000000, 1]⟩
abbrev S1 : Shape := ⟨1, ![1]⟩
abbrev S999999 : Shape := ⟨1, ![999999]⟩
abbrev S500000x32x3 : Shape := ⟨3, ![500000, 32, 3]⟩
abbrev S1000000x2 : Shape := ⟨2, ![1000000, 2]⟩
abbrev S500000 : Shape := ⟨1, ![500000]⟩
abbrev S500000x3 : Shape := ⟨2, ![500000, 3]⟩
abbrev S32 : Shape := ⟨1, ![32]⟩
abbrev S1x32 : Shape := ⟨2, ![1, 32]⟩
abbrev S500000x1 : Shape := ⟨2, ![500000, 1]⟩
abbrev S500000x32 : Shape := ⟨2, ![500000, 32]⟩
abbrev S500000x1x3 : Shape := ⟨3, ![500000, 1, 3]⟩
abbrev S500000x1x1 : Shape := ⟨3, ![500000, 1, 1]⟩
abbrev S500000x32x1 : Shape := ⟨3, ![500000, 32, 1]⟩
abbrev S500000x32x6 : Shape := ⟨3, ![500000, 32, 6]⟩
abbrev S500000x4 : Shape := ⟨2, ![500000, 4]⟩

abbrev nBuf : Space → Nat
  | .hbm => 189
  | .vmem => 0
  | .smem => 0
  | _ => 0

abbrev hbmTy0_0 (i : Nat) : BufTy := match i % 128 with
  | 0 => ⟨S1000000x3, .f32⟩
  | 1 => ⟨S3, .f32⟩
  | 2 => ⟨S3, .f32⟩
  | 3 => ⟨S3, .f32⟩
  | 4 => ⟨S1x3, .f32⟩
  | 5 => ⟨S1000000x3, .f32⟩
  | 6 => ⟨S1000000x3, .f32⟩
  | 7 => ⟨S1x3, .f32⟩
  | 8 => ⟨S1000000x3, .f32⟩
  | 9 => ⟨S1000000x3, .f32⟩
  | 10 => ⟨S1000000x3, .f32⟩
  | 11 => ⟨S1000000x3, .i32⟩
  | 12 => ⟨S3, .f32⟩
  | 13 => ⟨S3, .f32⟩
  | 14 => ⟨S1x3, .f32⟩
  | 15 => ⟨S1000000x3, .f32⟩
  | 16 => ⟨S1000000x3, .i1⟩
  | 17 => ⟨S1x3, .f32⟩
  | 18 => ⟨S1000000x3, .f32⟩
  | 19 => ⟨S1000000x3, .i1⟩
  | 20 => ⟨S1000000x3, .i1⟩
  | 21 => ⟨S_, .i1⟩
  | 22 => ⟨S1000000, .i1⟩
  | 23 => ⟨S1000000x1, .i32⟩
  | 24 => ⟨S1000000, .i32⟩
  | 25 => ⟨S_, .i32⟩
  | 26 => ⟨S1000000, .i32⟩
  | 27 => ⟨S1000000, .i32⟩
  | 28 => ⟨S1000000x1, .i32⟩
  | 29 => ⟨S1000000, .i32⟩
  | 30 => ⟨S1000000, .i32⟩
  | 31 => ⟨S_, .i32⟩
  | 32 => ⟨S1000000, .i32⟩
  | 33 => ⟨S1000000, .i32⟩
  | 34 => ⟨S1000000x1, .i32⟩
  | 35 => ⟨S1000000, .i32⟩
  | 36 => ⟨S1000000, .i32⟩
  | 37 => ⟨S_, .i32⟩
  | 38 => ⟨S_, .i32⟩
  | 39 => ⟨S1000000, .i32⟩
  | 40 => ⟨S1000000, .i32⟩
  | 41 => ⟨S1000000, .i32⟩
  | 42 => ⟨S1000000, .i32⟩
  | 43 => ⟨S1000000, .i32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x3, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x3, .i32⟩
  | 71 => ⟨S_, .i32⟩
  | 72 => ⟨S1000000, .i32⟩
  | 73 => ⟨S1000000, .i1⟩
  | 74 => ⟨S_, .i1⟩
  | 75 => ⟨S1, .i1⟩
  | 76 => ⟨S999999, .i32⟩
  | 77 => ⟨S999999, .i32⟩
  | 78 => ⟨S999999, .i1⟩
  | 79 => ⟨S1000000, .i1⟩
  | 80 => ⟨S1000000, .i32⟩
  | 81 => ⟨S_, .i32⟩
  | 82 => ⟨S_, .i32⟩
  | 83 => ⟨S1000000, .i32⟩
  | 84 => ⟨S_, .i32⟩
  | 85 => ⟨S1000000, .i32⟩
  | 86 => ⟨S1000000, .i32⟩
  | 87 => ⟨S1000000, .i32⟩
  | 88 => ⟨S_, .i32⟩
  | 89 => ⟨S_, .i32⟩
  | 90 => ⟨S1000000, .i32⟩
  | 91 => ⟨S1000000, .i32⟩
  | 92 => ⟨S_, .i32⟩
  | 93 => ⟨S_, .i32⟩
  | 94 => ⟨S1000000, .i32⟩
  | 95 => ⟨S1000000, .i32⟩
  | 96 => ⟨S_, .i32⟩
  | 97 => ⟨S_, .i32⟩
  | 98 => ⟨S1000000, .i32⟩
  | 99 => ⟨S1000000, .i32⟩
  | 100 => ⟨S_, .f32⟩
  | 101 => ⟨S500000x32x3, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x1, .i32⟩
  | 118 => ⟨S1000000x2, .i32⟩
  | 119 => ⟨S500000x32x3, .f32⟩
  | 120 => ⟨S_, .i32⟩
  | 121 => ⟨S1000000, .i32⟩
  | 122 => ⟨S1000000, .i1⟩
  | 123 => ⟨S1000000, .i1⟩
  | 124 => ⟨S1000000, .i32⟩
  | 125 => ⟨S_, .i32⟩
  | 126 => ⟨S500000, .i32⟩
  | 127 => ⟨S_, .i32⟩
  | _ => ⟨S1000000x3, .f32⟩

abbrev hbmTy0_1 (i : Nat) : BufTy := match i % 128 with
  | 0 => ⟨S1000000, .i32⟩
  | 1 => ⟨S1000000, .i1⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S500000, .i32⟩
  | 8 => ⟨S1000000, .i1⟩
  | 9 => ⟨S_, .i32⟩
  | 10 => ⟨S_, .i32⟩
  | 11 => ⟨S1000000, .i32⟩
  | 12 => ⟨S1000000, .i32⟩
  | 13 => ⟨S_, .i32⟩
  | 14 => ⟨S500000x3, .i32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S500000x3, .i32⟩
  | 24 => ⟨S500000x3, .f32⟩
  | 25 => ⟨S1x3, .f32⟩
  | 26 => ⟨S500000x3, .f32⟩
  | 27 => ⟨S500000x3, .f32⟩
  | 28 => ⟨S_, .f32⟩
  | 29 => ⟨S3, .f32⟩
  | 30 => ⟨S3, .f32⟩
  | 31 => ⟨S3, .f32⟩
  | 32 => ⟨S1x3, .f32⟩
  | 33 => ⟨S500000x3, .f32⟩
  | 34 => ⟨S500000x3, .f32⟩
  | 35 => ⟨S32, .i32⟩
  | 36 => ⟨S1x32, .i32⟩
  | 37 => ⟨S500000x1, .i32⟩
  | 38 => ⟨S500000x32, .i32⟩
  | 39 => ⟨S500000x32, .i32⟩
  | 40 => ⟨S500000x32, .i1⟩
  | 41 => ⟨S_, .i32⟩
  | 42 => ⟨S500000, .i32⟩
  | 43 => ⟨S500000, .i32⟩
  | 44 => ⟨S500000, .f32⟩
  | 45 => ⟨S_, .f32⟩
  | 46 => ⟨S500000x3, .f32⟩
  | 47 => ⟨S500000x1x3, .f32⟩
  | 48 => ⟨S500000x1x1, .f32⟩
  | 49 => ⟨S500000x1x3, .f32⟩
  | 50 => ⟨S500000x1x3, .f32⟩
  | 51 => ⟨S500000x32x3, .f32⟩
  | 52 => ⟨S500000x32x3, .f32⟩
  | 53 => ⟨S500000x32x1, .i1⟩
  | 54 => ⟨S500000x32x1, .f32⟩
  | 55 => ⟨S500000x32x3, .f32⟩
  | 56 => ⟨S500000x32x3, .f32⟩
  | 57 => ⟨S500000x32x6, .f32⟩
  | 58 => ⟨S_, .i32⟩
  | 59 => ⟨S_, .i32⟩
  | 60 => ⟨S500000x4, .i32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_4 : Ref sig .tc := ⟨.hbm, 37, rfl⟩
abbrev main_call0_v0 : Ref sig .tc := ⟨.hbm, 38, rfl⟩
abbrev main_call0_v1 : Ref sig .tc := ⟨.hbm, 39, rfl⟩
abbrev main_v30 : Ref sig .tc := ⟨.hbm, 40, rfl⟩
abbrev main_call1_v0 : Ref sig .tc := ⟨.hbm, 41, rfl⟩
abbrev main_call1_v1_0 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_11 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call2_call0_c : Ref sig .tc := ⟨.hbm, 81, rfl⟩
abbrev main_call2_call0_v0 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_14 : Ref sig .tc := ⟨.hbm, 88, rfl⟩
abbrev main_call3_v0 : Ref sig .tc := ⟨.hbm, 89, rfl⟩
abbrev main_call3_v1 : Ref sig .tc := ⟨.hbm, 90, rfl⟩
abbrev main_v65 : Ref sig .tc := ⟨.hbm, 91, rfl⟩
abbrev main_call4_c : Ref sig .tc := ⟨.hbm, 92, rfl⟩
abbrev main_call4_v0 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_call5_v0 : Ref sig .tc := ⟨.hbm, 97, rfl⟩
abbrev main_call5_v1 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_c_17 : Ref sig .tc := ⟨.hbm, 102, rfl⟩
abbrev main_v70 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_19 : Ref sig .tc := ⟨.hbm, 109, rfl⟩
abbrev main_v75 : Ref sig .tc := ⟨.hbm, 110, rfl⟩
abbrev main_v76 : Ref sig .tc := ⟨.hbm, 111, rfl⟩
abbrev main_c_20 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_22 : Ref sig .tc := ⟨.hbm, 125, rfl⟩
abbrev main_v88 : Ref sig .tc := ⟨.hbm, 126, rfl⟩
abbrev main_c_23 : Ref sig .tc := ⟨.hbm, 127, rfl⟩
abbrev main_v89 : Ref sig .tc := ⟨.hbm, 128, rfl⟩
abbrev main_v90 : Ref sig .tc := ⟨.hbm, 129, rfl⟩
abbrev main_c_24 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_25 : Ref sig .tc := ⟨.hbm, 137, rfl⟩
abbrev main_call6_v0 : Ref sig .tc := ⟨.hbm, 138, rfl⟩
abbrev main_call6_v1 : Ref sig .tc := ⟨.hbm, 139, rfl⟩
abbrev main_v97 : Ref sig .tc := ⟨.hbm, 140, rfl⟩
abbrev main_c_26 : Ref sig .tc := ⟨.hbm, 141, rfl⟩
abbrev main_v98 : Ref sig .tc := ⟨.hbm, 142, rfl⟩
abbrev main_c_27 : Ref sig .tc := ⟨.hbm, 143, rfl⟩
abbrev main_v99 : Ref sig .tc := ⟨.hbm, 144, rfl⟩
abbrev main_v100 : Ref sig .tc := ⟨.hbm, 145, rfl⟩
abbrev main_c_28 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_29 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_c_30 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_31 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_c_32 : Ref sig .tc := ⟨.hbm, 186, rfl⟩
abbrev main_call7_v0 : Ref sig .tc := ⟨.hbm, 187, rfl⟩
abbrev main_v137 : Ref sig .tc := ⟨.hbm, 188, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  reducesTo_S1000000x3_S1000000_d1 : S1000000x3.ReducesTo [1] S1000000
  h_S_ : 0 < S_.numel
  slices_S1000000x3_S1000000x1_0_0 : S1000000x3.Slices ![0, 0] S1000000x1
  shapeCasts_S1000000x1_S1000000 : S1000000x1.ShapeCasts S1000000
  bcast_S_S1000000 : S_.BroadcastsInDim S1000000 (![] : Fin 0 → Fin S1000000.rank)
  slices_S1000000x3_S1000000x1_0_1 : S1000000x3.Slices ![0, 1] S1000000x1
  slices_S1000000x3_S1000000x1_0_2 : S1000000x3.Slices ![0, 2] S1000000x1
  bcast_S1000000_S1000000x1_0 : S1000000.BroadcastsInDim S1000000x1 (![0] : Fin 1 → Fin S1000000x1.rank)
  bcast_S_S1 : S_.BroadcastsInDim S1 (![] : Fin 0 → Fin S1.rank)
  slices_S1000000_S999999_1 : S1000000.Slices ![1] S999999
  slices_S1000000_S999999_0 : S1000000.Slices ![0] S999999
  concatenates_S1_S999999_S1000000_d0 : Shape.Concatenates [S1, S999999] S1000000 0
  natLt_1_32 : 1 < 32
  bcast_S_S_ : S_.BroadcastsInDim S_ (![] : Fin 0 → Fin S_.rank)
  reduceWindows_S1000000_S1000000_w1000000s1p999999_0 : S1000000.ReduceWindows (![1000000] : Fin 1 → Nat) ![1] ![999999] ![0] S1000000
  bcast_S_S500000x32x3 : S_.BroadcastsInDim S500000x32x3 (![] : Fin 0 → Fin S500000x32x3.rank)
  concatenates_S1000000x1_S1000000x1_S1000000x2_d1 : Shape.Concatenates [S1000000x1, S1000000x1] S1000000x2 1
  bcast_S_S500000 : S_.BroadcastsInDim S500000 (![] : Fin 0 → Fin S500000.rank)
  bcast_S_S500000x3 : S_.BroadcastsInDim S500000x3 (![] : Fin 0 → Fin S500000x3.rank)
  bcast_S1x3_S500000x3_0_1 : S1x3.BroadcastsInDim S500000x3 (![0, 1] : Fin 2 → Fin S500000x3.rank)
  bcast_S_S3 : S_.BroadcastsInDim S3 (![] : Fin 0 → Fin S3.rank)
  bcast_S32_S1x32_1 : S32.BroadcastsInDim S1x32 (![1] : Fin 1 → Fin S1x32.rank)
  bcast_S500000_S500000x1_0 : S500000.BroadcastsInDim S500000x1 (![0] : Fin 1 → Fin S500000x1.rank)
  bcast_S1x32_S500000x32_0_1 : S1x32.BroadcastsInDim S500000x32 (![0, 1] : Fin 2 → Fin S500000x32.rank)
  bcast_S500000x1_S500000x32_0_1 : S500000x1.BroadcastsInDim S500000x32 (![0, 1] : Fin 2 → Fin S500000x32.rank)
  reducesTo_S500000x32x3_S500000x3_d1 : S500000x32x3.ReducesTo [1] S500000x3
  bcast_S500000x3_S500000x1x3_0_2 : S500000x3.BroadcastsInDim S500000x1x3 (![0, 2] : Fin 2 → Fin S500000x1x3.rank)
  bcast_S500000_S500000x1x1_0 : S500000.BroadcastsInDim S500000x1x1 (![0] : Fin 1 → Fin S500000x1x1.rank)
  bcast_S500000x1x1_S500000x1x3_0_1_2 : S500000x1x1.BroadcastsInDim S500000x1x3 (![0, 1, 2] : Fin 3 → Fin S500000x1x3.rank)
  bcast_S500000x1x3_S500000x32x3_0_1_2 : S500000x1x3.BroadcastsInDim S500000x32x3 (![0, 1, 2] : Fin 3 → Fin S500000x32x3.rank)
  bcast_S500000x32_S500000x32x1_0_1 : S500000x32.BroadcastsInDim S500000x32x1 (![0, 1] : Fin 2 → Fin S500000x32x1.rank)
  bcast_S500000x32x1_S500000x32x3_0_1_2 : S500000x32x1.BroadcastsInDim S500000x32x3 (![0, 1, 2] : Fin 3 → Fin S500000x32x3.rank)
  concatenates_S500000x32x3_S500000x32x3_S500000x32x6_d2 : Shape.Concatenates [S500000x32x3, S500000x32x3] S500000x32x6 2
  pads_S500000x3_S500000x4_000_100 : S500000x3.Pads (![0, 1] : Fin 2 → Nat) ![0, 0] ![0, 0] S500000x4
  gather_S1000000_S1000000x1_S1000000_n_0_n_n_0_1_1_wf : GatherDims.WF S1000000 S1000000x1 S1000000 [] [0] [] [0] [] 1 ![1]
  gather_S1000000x3_S1000000x1_S1000000x3_1_0_n_n_0_1_13_wf : GatherDims.WF S1000000x3 S1000000x1 S1000000x3 [1] [0] [] [0] [] 1 ![1, 3]
  scatter_S500000x32x3_S1000000x2_S1000000x3_1_01_01_1_wf : ScatterDims.WF S500000x32x3 S1000000x2 S1000000x3 [1] [0, 1] [0, 1] 1
  scatter_S500000_S1000000x1_S1000000_n_0_0_1_wf : ScatterDims.WF S500000 S1000000x1 S1000000 [] [0] [0] 1
  scatter_S500000x3_S1000000x1_S1000000x3_1_0_0_1_wf : ScatterDims.WF S500000x3 S1000000x1 S1000000x3 [1] [0] [0] 1

variable [Facts₀]

def comparator_i32_i32_d0 : BitVec 32 × BitVec 32 → BitVec 32 × BitVec 32 → BitVec 1 :=
  fun l r =>
    let v2 := IntOp.cmpi .slt l.1 r.1
    v2
def gather_S1000000_S1000000x1_S1000000_n_0_n_n_0_1_1 : GatherDims S1000000 S1000000x1 S1000000 where
  offsetDims := []
  collapsedSliceDims := [0]
  operandBatchingDims := []
  startIndicesBatchingDims := []
  startIndexMap := [0]
  indexVectorDim := 1
  sliceSizes := ![1]
  wf := gather_S1000000_S1000000x1_S1000000_n_0_n_n_0_1_1_wf
def gather_S1000000x3_S1000000x1_S1000000x3_1_0_n_n_0_1_13 : GatherDims S1000000x3 S1000000x1 S1000000x3 where
  offsetDims := [1]
  collapsedSliceDims := [0]
  operandBatchingDims := []
  startIndicesBatchingDims := []
  startIndexMap := [0]
  indexVectorDim := 1
  sliceSizes := ![1, 3]
  wf := gather_S1000000x3_S1000000x1_S1000000x3_1_0_n_n_0_1_13_wf
def scatter_S500000x32x3_S1000000x2_S1000000x3_1_01_01_1 : ScatterDims S500000x32x3 S1000000x2 S1000000x3 where
  updateWindowDims := [1]
  insertedWindowDims := [0, 1]
  scatterDimsToOperandDims := [0, 1]
  indexVectorDim := 1
  wf := scatter_S500000x32x3_S1000000x2_S1000000x3_1_01_01_1_wf
def scatter_S500000_S1000000x1_S1000000_n_0_0_1 : ScatterDims S500000 S1000000x1 S1000000 where
  updateWindowDims := []
  insertedWindowDims := [0]
  scatterDimsToOperandDims := [0]
  indexVectorDim := 1
  wf := scatter_S500000_S1000000x1_S1000000_n_0_0_1_wf
def scatter_S500000x3_S1000000x1_S1000000x3_1_0_0_1 : ScatterDims S500000x3 S1000000x1 S1000000x3 where
  updateWindowDims := [1]
  insertedWindowDims := [0]
  scatterDimsToOperandDims := [0]
  indexVectorDim := 1
  wf := scatter_S500000x3_S1000000x1_S1000000x3_1_0_0_1_wf

class Facts : Prop extends Facts₀ where

variable [Facts]
-- ==== Proof.Spec.lean ====
/-
  The voxel decoration as ONE function of the voxel buffer and the per-voxel counts, index by index.

  A voxel buffer `x` holds, for each of 500000 voxels, up to 32 points of 3 coordinates; `cnt i` is the
  number of points voxel `i` really holds (the rest of its slots are zero). The decorated buffer has 6
  coordinates per slot: the first three are the point itself, the last three the point's offset from the
  voxel's centroid — the sum of the voxel's 32 slots divided by max(cnt, 1) — times the slot's occupancy
  (1 if the slot's number is below the count, else 0). The occupancy mask itself is the third result.
-/
import Idealize.ShloMosaic.PureOps.Ideal
import Idealize.ShloMosaic.Lib.ValueIdx

noncomputable section

open scoped BigOperators

namespace Cert.Voxel

open Idealize.ShloMosaic Idealize.ShloMosaic.ValueIdx

/-- voxels × slots × coordinates -/
abbrev SV : Shape := ⟨3, ![500000, 32, 3]⟩
/-- one count per voxel -/
abbrev SC1 : Shape := ⟨1, ![500000]⟩
/-- voxels × slots × (point, offset) -/
abbrev SO : Shape := ⟨3, ![500000, 32, 6]⟩
/-- voxels × slots -/
abbrev SM : Shape := ⟨2, ![500000, 32]⟩

/-- Slot `j` of voxel `i` is occupied: its number is below the voxel's count, compared as signed words. -/
def occ (cnt : IVec SC1 32) (i : Fin 500000) (j : Fin 32) : BitVec 1 :=
  IntOp.cmpi .slt (BitVec.ofNat 32 j.val) (cnt (ix1 i))

/-- The voxel's count as a float, never below one. -/
def cntF (cnt : IVec SC1 32) (i : Fin 500000) : EReal :=
  FloatOps.sitofp (F := Ideal) .f32 (IntOp.maxsi (cnt (ix1 i)) 1#32)

/-- Coordinate `k` of voxel `i`'s centroid: the sum over its 32 slots divided by the count. -/
def centroid (x : FVec Ideal SV .f32) (cnt : IVec SC1 32) (i : Fin 500000) (k : Fin 3) : EReal :=
  Ideal.div (∑ p : Fin 32, x (ix3 i p k)) (cntF cnt i)

/-- The offset of slot `j`'s point from the centroid, zeroed on an empty slot. -/
def offset (x : FVec Ideal SV .f32) (cnt : IVec SC1 32) (i : Fin 500000) (j : Fin 32) (k : Fin 3) : EReal :=
  (x (ix3 i j k) - centroid x cnt i k) * FloatOps.uitofp (F := Ideal) .f32 (occ cnt i j)

/-- The decorated voxel buffer: coordinates 0–2 the point, 3–5 its masked offset from the centroid. -/
def voxOut (x : FVec Ideal SV .f32) (cnt : IVec SC1 32) : FVec Ideal SO .f32 := fun o =>
  if h : (o 2).val < 3 then x (ix3 (n0 := 500000) (n1 := 32) (n2 := 3) (o 0) (o 1) ⟨(o 2).val, h⟩)
  else offset x cnt (o 0) (o 1) ⟨(o 2).val - 3, by have h6 : (o 2).val < 6 := (o 2).isLt; omega⟩

/-- The occupancy mask as words (what the kernel region writes) … -/
def maskWord (cnt : IVec SC1 32) : IVec SM 32 := fun o => (occ cnt (o 0) (o 1)).setWidth 32

/-- … and as bits (the result). -/
def maskOut (cnt : IVec SC1 32) : IVec SM 1 := fun o => occ cnt (o 0) (o 1)

/-- voxels × coordinates, and the same with a leading batch column -/
abbrev SU : Shape := ⟨2, ![500000, 3]⟩
abbrev SP : Shape := ⟨2, ![500000, 4]⟩
abbrev S0 : Shape := ⟨0, ![]⟩

/-- The voxel coordinates with a zero batch index put in front of each row. -/
def padOut (u : IVec SU 32) : IVec SP 32 :=
  pad SP ![0, 1] ![0, 0] ![0, 0] u (constantI S0 32 0#32) (by decide) (by decide)

/-- A bit widened to a word is nonzero exactly when the bit is set. -/
theorem ne_zero_setWidth (b : BitVec 1) : IntOp.cmpi .ne (b.setWidth 32) 0#32 = b := by
  revert b; decide

end Cert.Voxel

end
-- ==== Proof.LibAfter.lean ====
/-
  General facts about the fold of a list of host operations over a valuation.
-/
import Idealize.ShloMosaic.Lib.StableHlo.Run

namespace Idealize.ShloMosaic.StableHlo

variable {τ : Topo} {sig : RefSig} {Val : EltTy → Type}

/-- Running two lists of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.KFinal.lean ====
/-
  The kernel region's two output arrays after the run, each as one function of the arrays the region finds.

  The region walks 50 grid points; point t stages voxels 10000·t … 10000·t + 9999 of the voxel buffer and of the
  counts column, and writes back the same voxels of the decorated buffer and of the occupancy words. Per block the
  body stores the points into columns 0–2 and the masked offsets from the block's own lane sums into columns 3–5, so
  what point t writes back is block t of the specification's whole-array function; the 50 blocks tile both arrays.
-/
import proofs.«180918_j40785009443381_1_alg».proof.Proof.Gen.KernelIdeal.Frame
import proofs.«180918_j40785009443381_1_alg».proof.Proof.Spec
import proofs.«180918_j40785009443381_1_alg».proof.Proof.LibAfter
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- The voxel buffer, the per-voxel counts and the voxel coordinates as the region finds them. -/
abbrev vox (c : Dev nD) : FVec Ideal Cert.Voxel.SV .f32 := V m c main_v83
abbrev cnt (c : Dev nD) : IVec Cert.Voxel.SC1 32 := V m c main_v95
abbrev ucoord (c : Dev nD) : IVec Cert.Voxel.SU 32 := V m c main_v105

/-! ## The payloads at an index -/

/-- A set bit widened to a word and read signed is the bit read unsigned. -/
theorem sitofp_setWidth_bit (b : BitVec 1) :
    FloatOps.sitofp (F := Ideal) .f32 (b.setWidth 32) = FloatOps.uitofp (F := Ideal) .f32 b := by
  rcases BitVec.eq_zero_or_eq_one b with h | h <;> subst h
  · show ((((0#1 : BitVec 1).setWidth 32).toInt : ℝ) : EReal) = ((((0#1 : BitVec 1)).toNat : ℝ) : EReal)
    norm_num
  · show ((((1#1 : BitVec 1).setWidth 32).toInt : ℝ) : EReal) = ((((1#1 : BitVec 1)).toNat : ℝ) : EReal)
    norm_num

/-- A shape cast to the same shape changes nothing: the point payload is the loaded block … -/
theorem pointPayload_eq (x0 : Vec Ideal S10000x32x3 .f32) : k0_pay1 x0 = x0 := by
  unfold k0_pay1; exact shapeCast_self _ _

/-- … and the counts payload is the loaded counts column. -/
theorem countsPayload_eq (x1 : Vec Ideal S10000x1 .i32) : k0_pay2 (F := Ideal) x1 = x1 := by
  unfold k0_pay2; exact shapeCast_self _ _

/-- The occupancy payload at (voxel, slot): the slot's number compared, signed, with the voxel's count, as a word. -/
theorem occPayload_apply (x1 : Vec Ideal S10000x1 .i32) (r : Fin 10000) (j : Fin 32) :
    k0_pay3 (F := Ideal) x1 (ix2 r j) = (IntOp.cmpi .slt (BitVec.ofNat 32 j.val) (x1 (ix2 r 0))).setWidth 32 := by
  unfold k0_pay3
  rw [countsPayload_eq]
  show (IntOp.cmpi .slt (iota .tc S10000x32 32 [1] iota_S10000x32_d1_w32 (ix2 r j)) (broadcastTo S10000x32 x1 broadcasts_S10000x1_S10000x32 (ix2 r j))).setWidth 32 = _
  rw [iota_single_apply, broadcastTo_apply x1 broadcasts_S10000x1_S10000x32 (ix2 r j) (ix2 r 0) (fun a => by
    match a with
    | ⟨0, _⟩ => rfl
    | ⟨1, _⟩ => rfl)]

/-- The sum over the slot axis of a block, at (voxel, coordinate). -/
theorem laneSum_apply (x0 : FVec Ideal S10000x32x3 .f32) (hφ : FKind.Formats .f32)
    (hacc : (0x00000000#32 : BitVec 32) = 0x00000000#32)
    (r : Fin 10000) (k : Fin 3) :
    multiReduction (F := Ideal) .add [1] S10000x3 x0 0x00000000#32 reduces_S10000x32x3_S10000x3 hφ hacc (ix2 r k)
      = ∑ p : Fin 32, x0 (ix3 r p k) := by
  refine (Ideal.multiReduction_add_single x0 0x00000000#32 reduces_S10000x32x3_S10000x3 hφ hacc (ix2 r k)).trans ?_
  refine Finset.sum_congr rfl fun p _ => congrArg x0 ?_
  funext a
  match a with
  | ⟨0, _⟩ => rfl
  | ⟨1, _⟩ => rfl
  | ⟨2, _⟩ => rfl

/-- The masked offset payload at (voxel, slot, coordinate): the point minus the block's centroid, times the slot's
    occupancy word read as a float. -/
theorem offsetPayload_apply (x0 : Vec Ideal S10000x32x3 .f32) (x1 : Vec Ideal S10000x1 .i32) (r : Fin 10000) (j : Fin 32) (k : Fin 3) :
    k0_pay4 x0 x1 (ix3 r j k)
      = (x0 (ix3 r j k) - Ideal.div (∑ p : Fin 32, x0 (ix3 r p k))
            (FloatOps.sitofp (F := Ideal) .f32 (IntOp.maxsi (x1 (ix2 r 0)) 1#32)))
          * FloatOps.sitofp (F := Ideal) .f32 ((IntOp.cmpi .slt (BitVec.ofNat 32 j.val) (x1 (ix2 r 0))).setWidth 32) := by
  unfold k0_pay4
  rw [pointPayload_eq, countsPayload_eq]
  rw [mulf_apply, subf_apply]
  rw [broadcastTo_apply _ broadcasts_S10000x1x3_S10000x32x3 (ix3 r j k) (ix3 r 0 k) (fun a => by
    match a with
    | ⟨0, _⟩ => rfl
    | ⟨1, _⟩ => rfl
    | ⟨2, _⟩ => rfl)]
  rw [shapeCast_apply _ shapeCasts_S10000x3_S10000x1x3 (ix3 r 0 k) (ix2 r k) (by
    rw [Shape.rowMajor_val_two, Shape.rowMajor_val_three]
    show r.val * 3 + k.val = (r.val * 1 + 0) * 3 + k.val
    omega)]
  rw [divf_apply, laneSum_apply]
  rw [broadcastTo_apply _ broadcasts_S10000x1_S10000x3 (ix2 r k) (ix2 r 0) (fun a => by
    match a with
    | ⟨0, _⟩ => rfl
    | ⟨1, _⟩ => rfl)]
  rw [broadcastTo_apply _ broadcasts_S10000x32x1_S10000x32x3 (ix3 r j k) (ix3 r j 0) (fun a => by
    match a with
    | ⟨0, _⟩ => rfl
    | ⟨1, _⟩ => rfl
    | ⟨2, _⟩ => rfl)]
  rw [shapeCast_apply _ shapeCasts_S10000x32_S10000x32x1 (ix3 r j 0) (ix2 r j) (by
    rw [Shape.rowMajor_val_two, Shape.rowMajor_val_three]
    show r.val * 32 + j.val = (r.val * 32 + j.val) * 1 + 0
    omega)]
  rw [sitofp_apply, sitofp_apply, occPayload_apply]
  rfl

/-! ## What the body leaves in each output block -/

/-- The zero offsets of a whole-block access, however spelt. -/
theorem zero3 : (![0, 0, 0] : Fin 3 → Nat) = fun _ => 0 := funext fun a => by fin_cases a <;> rfl
theorem zero2 : (![0, 0] : Fin 2 → Nat) = fun _ => 0 := funext fun a => by fin_cases a <;> rfl

/-- What the body leaves in the decorated block at (voxel, slot, column): columns 0–2 the point, columns 3–5 the
    masked offset at column − 3. -/
theorem decorated_apply (x0 : Vec Ideal S10000x32x3 .f32) (x1 : Vec Ideal S10000x1 .i32) (r : Fin 10000) (j : Fin 32) (k : Fin 6) :
    out0_2 x0 x1 (ix3 r j k)
      = if h : k.val < 3 then x0 (ix3 r j ⟨k.val, h⟩)
        else k0_pay4 x0 x1 (ix3 r j ⟨k.val - 3, by have := k.isLt; omega⟩) := by
  unfold out0_2
  simp only [View.ld_unit_zero (S := S10000x32x3) zero3, View.ld_unit_zero (S := S10000x1) zero2, pointPayload_eq]
  have hk6 : k.val < 6 := k.isLt
  by_cases h : k.val < 3
  · rw [dif_pos h]
    rw [View.canon_cons_of_not_mem _ _ (y := (ix3 r j k : S10000x32x6.Idx)) (by
      rw [Rect.mem_set_unit]
      intro hm
      have h2 : (3 : Nat) ≤ k.val := (hm 2).1
      omega)]
    have e : (ix3 r j k : S10000x32x6.Idx) = r0_2.emb (ix3 r j ⟨k.val, h⟩) := by
      funext a; apply Fin.ext
      match a with
      | ⟨0, _⟩ => show r.val = 0 + 1 * r.val; omega
      | ⟨1, _⟩ => show j.val = 0 + 1 * j.val; omega
      | ⟨2, _⟩ => show k.val = 0 + 1 * k.val; omega
    rw [e, View.canon_cons_emb]
  · rw [dif_neg h]
    have e : (ix3 r j k : S10000x32x6.Idx) = r0_3.emb (ix3 r j ⟨k.val - 3, by omega⟩) := by
      funext a; apply Fin.ext
      match a with
      | ⟨0, _⟩ => show r.val = 0 + 1 * r.val; omega
      | ⟨1, _⟩ => show j.val = 0 + 1 * j.val; omega
      | ⟨2, _⟩ => show k.val = 3 + 1 * (k.val - 3); omega
    rw [e, View.canon_cons_emb]

/-- What the body leaves in the occupancy block at (voxel, slot). -/
theorem occBlock_apply (x0 : Vec Ideal S10000x32x3 .f32) (x1 : Vec Ideal S10000x1 .i32) (r : Fin 10000) (j : Fin 32) :
    out0_3 x0 x1 (ix2 r j) = (IntOp.cmpi .slt (BitVec.ofNat 32 j.val) (x1 (ix2 r 0))).setWidth 32 := by
  unfold out0_3
  rw [View.canon_unit_zero zero2]
  simp only [View.ld_unit_zero (S := S10000x1) zero2]
  exact occPayload_apply x1 r j

/-! ## The counts column the region stages -/

section CountsColumn
open Idealize.ShloMosaic.StableHlo

/-- The host prefix ends with the operation that gives the counts a unit second axis: the contents the region
    finds are that operation's result over whatever came before. -/
theorem V0_split (c : Dev nD) : ∃ W : Valuation τ sig (Elt Ideal),
    V0 m c = (StableHlo.reshape (τ := τ) (Val := Elt Ideal) main_v95 main_v116 rfl shapeCasts_S500000_S500000x1).result W := by
  unfold V0
  simp only [List.flatten_cons, List.flatten_nil, List.append_nil, after_append]
  generalize after hostOps0_11 _ = W11
  simp only [hostOps0_12, after_cons, after_nil]
  exact ⟨_, rfl⟩

/-- The counts window's array is the rank-1 counts with a unit axis added. -/
theorem cnt2d_eq (c : Dev nD) :
    (V m c main_v116 : IVec S500000x1 32) = shapeCast S500000x1 (V m c main_v95 : IVec S500000 32) shapeCasts_S500000_S500000x1 := by
  obtain ⟨W, hW⟩ := V0_split m c
  have e116 : V m c main_v116 = (StableHlo.reshape (τ := τ) (Val := Elt Ideal) main_v95 main_v116 rfl shapeCasts_S500000_S500000x1).result W (Proc.devRef .tc main_v116) :=
    congrFun hW (Proc.devRef .tc main_v116)
  have e95 : V m c main_v95 = (StableHlo.reshape (τ := τ) (Val := Elt Ideal) main_v95 main_v116 rfl shapeCasts_S500000_S500000x1).result W (Proc.devRef .tc main_v95) :=
    congrFun hW (Proc.devRef .tc main_v95)
  rw [e116, e95, reshape_result, reshape_result_ne _ _ _ _ _ _ _ (by decide)]
  rfl

end CountsColumn

/-! ## Blocks of the arrays -/

/-- The printed index maps over the 50 grid points: every window's block index is the grid point on the voxel axis
    and zero on the others. -/
theorem blockIndex_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- There are 50 grid points. -/
theorem lt50 (t : Fin cfg0.N) : t.val < 50 := lt_of_lt_of_eq t.isLt N_0

/-- The voxel that row `r` of grid point `t`'s block is: blocks are 10000 consecutive voxels. -/
def vrow (t : Fin cfg0.N) (r : Fin 10000) : Fin 500000 :=
  ⟨t.val * 10000 + r.val, by have ht := lt50 t; have hr := r.isLt; omega⟩

/-- Its value. -/
theorem vrow_val (t : Fin cfg0.N) (r : Fin 10000) : (vrow t r).val = t.val * 10000 + r.val := rfl

/-- Each window's block at a grid point reads ANY array contents at the block's voxels: the block is 10000
    consecutive voxels, whole on the other axes. -/
theorem read_voxBlock (t : Fin cfg0.N) (A : S500000x32x3.Idx → Elt Ideal .f32) (r : Fin 10000) (p : Fin 32) (k : Fin 3) :
    ((cfg0.win 0).blk t).view.read (Elt Ideal) A (ix3 r p k) = A (ix3 (vrow t r) p k) := by
  rw [View.read_apply]
  show A _ = A _
  refine congrArg A ?_
  obtain ⟨e0, e1, e2, -⟩ := blockIndex_facts t
  funext a; apply Fin.ext
  match a with
  | ⟨0, _⟩ => show win0_0.index t (0 : Fin 3) * 10000 + 1 * r.val = t.val * 10000 + r.val; omega
  | ⟨1, _⟩ => show win0_0.index t (1 : Fin 3) * 32 + 1 * p.val = p.val; omega
  | ⟨2, _⟩ => show win0_0.index t (2 : Fin 3) * 3 + 1 * k.val = k.val; omega

/-- The counts column's block: rows 10000·t …, its one column. -/
theorem read_cntBlock (t : Fin cfg0.N) (A : S500000x1.Idx → Elt Ideal .i32) (r : Fin 10000) :
    ((cfg0.win 1).blk t).view.read (Elt Ideal) A (ix2 r 0) = A (ix2 (vrow t r) 0) := by
  rw [View.read_apply]
  show A _ = A _
  refine congrArg A ?_
  obtain ⟨-, -, -, e0, e1, -⟩ := blockIndex_facts t
  funext a; apply Fin.ext
  match a with
  | ⟨0, _⟩ => show win0_1.index t (0 : Fin 2) * 10000 + 1 * r.val = t.val * 10000 + r.val; omega
  | ⟨1, _⟩ => show win0_1.index t (1 : Fin 2) * 1 + 1 * 0 = 0; omega

/-- The decorated array's block. -/
theorem read_decBlock (t : Fin cfg0.N) (A : S500000x32x6.Idx → Elt Ideal .f32) (r : Fin 10000) (j : Fin 32) (k : Fin 6) :
    ((cfg0.win 2).blk t).view.read (Elt Ideal) A (ix3 r j k) = A (ix3 (vrow t r) j k) := by
  rw [View.read_apply]
  show A _ = A _
  refine congrArg A ?_
  obtain ⟨-, -, -, -, -, e0, e1, e2, -⟩ := blockIndex_facts t
  funext a; apply Fin.ext
  match a with
  | ⟨0, _⟩ => show win0_2.index t (0 : Fin 3) * 10000 + 1 * r.val = t.val * 10000 + r.val; omega
  | ⟨1, _⟩ => show win0_2.index t (1 : Fin 3) * 32 + 1 * j.val = j.val; omega
  | ⟨2, _⟩ => show win0_2.index t (2 : Fin 3) * 6 + 1 * k.val = k.val; omega

/-- The occupancy array's block. -/
theorem read_occBlock (t : Fin cfg0.N) (A : S500000x32.Idx → Elt Ideal .i32) (r : Fin 10000) (j : Fin 32) :
    ((cfg0.win 3).blk t).view.read (Elt Ideal) A (ix2 r j) = A (ix2 (vrow t r) j) := by
  rw [View.read_apply]
  show A _ = A _
  refine congrArg A ?_
  obtain ⟨-, -, -, -, -, -, -, -, e0, e1⟩ := blockIndex_facts t
  funext a; apply Fin.ext
  match a with
  | ⟨0, _⟩ => show win0_3.index t (0 : Fin 2) * 10000 + 1 * r.val = t.val * 10000 + r.val; omega
  | ⟨1, _⟩ => show win0_3.index t (1 : Fin 2) * 32 + 1 * j.val = j.val; omega

/-- The voxel block at a grid point reads the voxel buffer at the block's voxels. -/
theorem voxBlock_apply (c : Dev nD) (t : Fin cfg0.N) (r : Fin 10000) (p : Fin 32) (k : Fin 3) :
    iblk m c 0 t (ix3 r p k) = vox m c (ix3 (vrow t r) p k) := by
  unfold iblk
  exact read_voxBlock t (V m c (Pipeline.arrRef spec0 0)) r p k

/-- The counts block at a grid point reads the counts at the block's voxels. -/
theorem cntBlock_apply (c : Dev nD) (t : Fin cfg0.N) (r : Fin 10000) :
    iblk m c 1 t (ix2 r 0) = cnt m c (ix1 (vrow t r)) := by
  unfold iblk
  refine (read_cntBlock t (V m c (Pipeline.arrRef spec0 1)) r).trans ?_
  refine (congrFun (cnt2d_eq m c) (ix2 (vrow t r) 0)).trans ?_
  exact shapeCast_apply _ shapeCasts_S500000_S500000x1 (ix2 (vrow t r) 0) (ix1 (vrow t r)) (by
    rw [Shape.rowMajor_val_one, Shape.rowMajor_val_two]
    show (vrow t r).val = (vrow t r).val * 1 + 0
    omega)

/-! ## From blocks to the arrays -/

/-- Every rank-3 index is its three coordinates, each of its axis's literal range. -/
theorem exists_ix3 {n0 n1 n2 : Nat} (y : (⟨3, ![n0, n1, n2]⟩ : Shape).Idx) :
    ∃ (a : Fin n0) (b : Fin n1) (d : Fin n2), y = ix3 a b d := ⟨y 0, y 1, y 2, eq_ix3 y⟩
/-- The same at rank 2. -/
theorem exists_ix2 {n0 n1 : Nat} (y : (⟨2, ![n0, n1]⟩ : Shape).Idx) :
    ∃ (a : Fin n0) (b : Fin n1), y = ix2 a b := ⟨y 0, y 1, eq_ix2 y⟩

/-- The specification's decorated buffer at (voxel, slot, column). -/
theorem voxOut_ix3 (x : FVec Ideal Cert.Voxel.SV .f32) (cn : IVec Cert.Voxel.SC1 32) (R : Fin 500000) (j : Fin 32) (k : Fin 6) :
    Cert.Voxel.voxOut x cn (ix3 R j k)
      = if h : k.val < 3 then x (ix3 R j ⟨k.val, h⟩)
        else Cert.Voxel.offset x cn R j ⟨k.val - 3, by have := k.isLt; omega⟩ := rfl

/-- The specification's occupancy word at (voxel, slot). -/
theorem maskWord_ix2 (cn : IVec Cert.Voxel.SC1 32) (R : Fin 500000) (j : Fin 32) :
    Cert.Voxel.maskWord cn (ix2 R j) = (IntOp.cmpi .slt (BitVec.ofNat 32 j.val) (cn (ix1 R))).setWidth 32 := rfl

/-- An uncut block's staging contents are written back as they are. -/
theorem cutDec_apply (t : Fin cfg0.N) (X : Vec Ideal S10000x32x6 .f32) (y : S10000x32x6.Idx) :
    (cfg0.win 2).cut (grid0.coords t) X y = X y := rfl
/-- The same for the occupancy block. -/
theorem cutOcc_apply (t : Fin cfg0.N) (X : Vec Ideal S10000x32 .i32) (y : S10000x32.Idx) :
    (cfg0.win 3).cut (grid0.coords t) X y = X y := rfl

/-- The masked offset payload of a grid point's blocks is the specification's offset at the block's voxel: the lane sum is
    the sum over the voxel's slots, the count column is the count, and the occupancy word read signed is the
    occupancy bit read unsigned. -/
theorem offsetPayload_blk (c : Dev nD) (t : Fin cfg0.N) (r : Fin 10000) (j : Fin 32) (k : Fin 3) :
    k0_pay4 (iblk m c 0 t) (iblk m c 1 t) (ix3 r j k) = Cert.Voxel.offset (vox m c) (cnt m c) (vrow t r) j k := by
  refine (offsetPayload_apply (iblk m c 0 t) (iblk m c 1 t) r j k).trans ?_
  unfold Cert.Voxel.offset Cert.Voxel.centroid Cert.Voxel.cntF Cert.Voxel.occ
  rw [voxBlock_apply m c t r j k, cntBlock_apply m c t r, sitofp_setWidth_bit]
  simp only [voxBlock_apply]

/-- What grid point `t` leaves in its decorated block is the specification's buffer at the block's voxels. -/
theorem decBlock_eq (c : Dev nD) (t : Fin cfg0.N) (y : S10000x32x6.Idx) :
    (cfg0.win 2).cut (grid0.coords t) (out0_2 (iblk m c 0 t) (iblk m c 1 t)) y
      = ((cfg0.win 2).blk t).view.read (Elt Ideal) (Cert.Voxel.voxOut (vox m c) (cnt m c)) y := by
  obtain ⟨r, j, k, rfl⟩ := exists_ix3 y
  refine (cutDec_apply t _ _).trans ?_
  refine Eq.trans ?_ (read_decBlock t (Cert.Voxel.voxOut (vox m c) (cnt m c)) r j k).symm
  refine (decorated_apply (iblk m c 0 t) (iblk m c 1 t) r j k).trans ?_
  rw [voxOut_ix3]
  by_cases h : k.val < 3
  · rw [dif_pos h, dif_pos h]
    exact voxBlock_apply m c t r j ⟨k.val, h⟩
  · rw [dif_neg h, dif_neg h]
    exact offsetPayload_blk m c t r j ⟨k.val - 3, by have := k.isLt; omega⟩

/-- What grid point `t` leaves in its occupancy block is the specification's mask at the block's voxels. -/
theorem occBlock_eq (c : Dev nD) (t : Fin cfg0.N) (y : S10000x32.Idx) :
    (cfg0.win 3).cut (grid0.coords t) (out0_3 (iblk m c 0 t) (iblk m c 1 t)) y
      = ((cfg0.win 3).blk t).view.read (Elt Ideal) (Cert.Voxel.maskWord (cnt m c)) y := by
  obtain ⟨r, j, rfl⟩ := exists_ix2 y
  refine (cutOcc_apply t _ _).trans ?_
  refine Eq.trans ?_ (read_occBlock t (Cert.Voxel.maskWord (cnt m c)) r j).symm
  refine (occBlock_apply (iblk m c 0 t) (iblk m c 1 t) r j).trans ?_
  rw [maskWord_ix2, cntBlock_apply m c t r]

/-- WHAT POINT `t` WRITES BACK to the decorated array is block `t` of the specification's buffer. -/
theorem flushedDec_eq (c : Dev nD) (t : Fin cfg0.N) :
    (dats m 0 c).flushed 2 t = ((cfg0.win 2).blk t).view.read (Elt Ideal) (Cert.Voxel.voxOut (vox m c) (cnt m c)) := by
  show (cfg0.win 2).cut (grid0.coords t) ((dats m 0 c).after 2 t) = _
  rw [after0_2]
  exact funext fun y => decBlock_eq m c t y

/-- WHAT POINT `t` WRITES BACK to the occupancy array is block `t` of the specification's mask. -/
theorem flushedOcc_eq (c : Dev nD) (t : Fin cfg0.N) :
    (dats m 0 c).flushed 3 t = ((cfg0.win 3).blk t).view.read (Elt Ideal) (Cert.Voxel.maskWord (cnt m c)) := by
  show (cfg0.win 3).cut (grid0.coords t) ((dats m 0 c).after 3 t) = _
  rw [after0_3]
  exact funext fun y => occBlock_eq m c t y

/-- An index of the decorated array is in point `t`'s block iff each coordinate is in the block's range on its axis. -/
theorem mem_decBlock (t : Fin cfg0.N) (i : S500000x32x6.Idx) :
    i ∈ ((cfg0.win 2).blk t).view.set ↔ ∀ a : Fin 3, win0_2.index t a * S10000x32x6.size a ≤ (i a).val ∧ (i a).val < win0_2.index t a * S10000x32x6.size a + S10000x32x6.size a := by
  show i ∈ ((View.whole main_v117_0).slice (win0_2.rect t)).set ↔ _
  rw [View.set_slice_whole, Rect.mem_set_unit]
  exact Iff.rfl

/-- The same for the occupancy array. -/
theorem mem_occBlock (t : Fin cfg0.N) (i : S500000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v117_1).slice (win0_3.rect t)).set ↔ _
  rw [View.set_slice_whole, Rect.mem_set_unit]
  exact Iff.rfl

/-- The blocks tile the decorated array: voxel `v` is in the block of grid point `v / 10000`. -/
theorem decBlocks_cover (i : S500000x32x6.Idx) :
    ∃ t : Fin cfg0.N, (cfg0.win 2).flush t = true ∧ i ∈ ((cfg0.win 2).blk t).view.set := by
  have hi0 : (i 0).val < 500000 := (i 0).isLt
  have hi1 : (i 1).val < 32 := (i 1).isLt
  have hi2 : (i 2).val < 6 := (i 2).isLt
  obtain ⟨t, ht⟩ : ∃ t : Fin cfg0.N, t.val = (i 0).val / 10000 :=
    ⟨⟨(i 0).val / 10000, lt_of_lt_of_eq (show (i 0).val / 10000 < 50 by omega) N_0.symm⟩, rfl⟩
  refine ⟨t, flush0_2 t, ?_⟩
  rw [mem_decBlock]
  obtain ⟨-, -, -, -, -, e0, e1, e2, -⟩ := blockIndex_facts t
  intro a
  match a with
  | ⟨0, _⟩ => show win0_2.index t (0 : Fin 3) * 10000 ≤ (i 0).val ∧ (i 0).val < win0_2.index t (0 : Fin 3) * 10000 + 10000; omega
  | ⟨1, _⟩ => show win0_2.index t (1 : Fin 3) * 32 ≤ (i 1).val ∧ (i 1).val < win0_2.index t (1 : Fin 3) * 32 + 32; omega
  | ⟨2, _⟩ => show win0_2.index t (2 : Fin 3) * 6 ≤ (i 2).val ∧ (i 2).val < win0_2.index t (2 : Fin 3) * 6 + 6; omega

/-- The blocks tile the occupancy array likewise. -/
theorem occBlocks_cover (i : S500000x32.Idx) :
    ∃ t : Fin cfg0.N, (cfg0.win 3).flush t = true ∧ i ∈ ((cfg0.win 3).blk t).view.set := by
  have hi0 : (i 0).val < 500000 := (i 0).isLt
  have hi1 : (i 1).val < 32 := (i 1).isLt
  obtain ⟨t, ht⟩ : ∃ t : Fin cfg0.N, t.val = (i 0).val / 10000 :=
    ⟨⟨(i 0).val / 10000, lt_of_lt_of_eq (show (i 0).val / 10000 < 50 by omega) N_0.symm⟩, rfl⟩
  refine ⟨t, flush0_3 t, ?_⟩
  rw [mem_occBlock]
  obtain ⟨-, -, -, -, -, -, -, -, e0, e1⟩ := blockIndex_facts t
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 32 ≤ (i 1).val ∧ (i 1).val < win0_3.index t (1 : Fin 2) * 32 + 32; omega

/-- The decorated voxel buffer after the run. -/
theorem final2 (c : Dev nD) : (dats m 0 c).arrAt 2 cfg0.N = Cert.Voxel.voxOut (vox m c) (cnt m c) :=
  (dats m 0 c).arrAt_eq_of_cover 2 (Cert.Voxel.voxOut (vox m c) (cnt m c)) (fun t _ => flushedDec_eq m c t) decBlocks_cover

/-- The occupancy words after the run. -/
theorem final3 (c : Dev nD) : (dats m 0 c).arrAt 3 cfg0.N = Cert.Voxel.maskWord (cnt m c) :=
  (dats m 0 c).arrAt_eq_of_cover 3 (Cert.Voxel.maskWord (cnt m c)) (fun t _ => flushedOcc_eq m c t) occBlocks_cover

end Cert.KernelIdeal.KV

end
-- ==== Proof.KRun.lean ====
/-
  The idealized kernel program's run with every result named: the region's arrays by their closed forms,
  the lines after the region read off them.
-/
import proofs.«180918_j40785009443381_1_alg».proof.Proof.KFinal

set_option maxRecDepth 16384

noncomputable section

namespace Cert.KernelIdeal.KV

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The lines after the region, as one list. -/
abbrev tailOps : List (HloOp τ sig (Elt Ideal)) := List.flatten [hostOps1, hostOps1_1]

/-- The voxel centres: no line after the region writes them. -/
theorem tail_v115 (W : Valuation τ sig (Elt Ideal)) :
    StableHlo.after tailOps W (Proc.devRef .tc main_v115) = W (Proc.devRef .tc main_v115) :=
  StableHlo.after_of_forall_not_mem (b := Proc.devRef .tc main_v115) _ _ (List.forall_iff_forall_mem.mp (by
    simp only [tailOps, hostOps1, hostOps1_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- The mask: the occupancy words compared against zero. -/
theorem tail_v120 (W : Valuation τ sig (Elt Ideal)) :
    StableHlo.after tailOps W (Proc.devRef .tc main_v120)
      = (cmpi .ne (W (Proc.devRef .tc main_v117_1)) (broadcastInDim S500000x32 ![] bcast_S_S500000x32 (constantI S_ 32 0#32)) : IVec S500000x32 1) := by
  simp only [tailOps, hostOps1, hostOps1_1, List.flatten_cons, List.flatten_nil, List.append_nil, List.cons_append, List.nil_append]
  after_results
  rfl

/-- The padded coordinates. -/
theorem tail_v121 (W : Valuation τ sig (Elt Ideal)) :
    StableHlo.after tailOps W (Proc.devRef .tc main_v121)
      = (pad S500000x4 ![0, 1] ![0, 0] ![0, 0] (W (Proc.devRef .tc main_v105)) (constantI S_ 32 0#32) pads_S500000x3_S500000x4_000_100 h_S_ : IVec S500000x4 32) := by
  simp only [tailOps, hostOps1, hostOps1_1, List.flatten_cons, List.flatten_nil, List.append_nil, List.cons_append, List.nil_append]
  after_results
  rfl

/-- The region's exit contents: the arrays at what the run leaves, everything else as the region found it. -/
abbrev exitW (c : Dev nD) : Valuation τ sig (Elt Ideal) :=
  Pipeline.withArrays spec0 c (V0 m c) fun w => (dats m 0 c).arrAt w cfg0.N

theorem exit_v117_1 (c : Dev nD) : exitW m c (Proc.devRef .tc main_v117_1) = Cert.Voxel.maskWord (cnt m c) :=
  (Pipeline.withArrays_arr spec0 launch0.win.arr_inj c _ _ 3).trans (final3 m c)

theorem exit_v105 (c : Dev nD) : exitW m c (Proc.devRef .tc main_v105) = ucoord m c :=
  Pipeline.withArrays_of_ne _ c (V0 m c) _ main_v105 (by exact (by decide : ∀ w, Pipeline.arrRef spec0 w ≠ main_v105))

theorem exit_v115 (c : Dev nD) : exitW m c (Proc.devRef .tc main_v115) = V m c main_v115 :=
  Pipeline.withArrays_of_ne _ c (V0 m c) _ main_v115 (by exact (by decide : ∀ w, Pipeline.arrRef spec0 w ≠ main_v115))

/-- The padded coordinates after the run. -/
theorem post_v121 (c : Dev nD) :
    Pipeline.afterTail₀ cfgs (dats m) 0 (V0 m) [hostOps1, hostOps1_1] c main_v121 = Cert.Voxel.padOut (ucoord m c) := by
  unfold Pipeline.afterTail₀
  refine (tail_v121 (exitW m c)).trans ?_
  rw [exit_v105]
  rfl

/-- The mask after the run: a widened bit is nonzero exactly when it is set. -/
theorem post_v120 (c : Dev nD) :
    Pipeline.afterTail₀ cfgs (dats m) 0 (V0 m) [hostOps1, hostOps1_1] c main_v120 = Cert.Voxel.maskOut (cnt m c) := by
  unfold Pipeline.afterTail₀
  refine (tail_v120 (exitW m c)).trans ?_
  rw [exit_v117_1]
  funext o
  exact Cert.Voxel.ne_zero_setWidth _

/-- The voxel centres after the run are the ones the region found. -/
theorem post_v115 (c : Dev nD) :
    Pipeline.afterTail₀ cfgs (dats m) 0 (V0 m) [hostOps1, hostOps1_1] c main_v115 = V m c main_v115 := by
  unfold Pipeline.afterTail₀
  exact (tail_v115 (exitW m c)).trans (exit_v115 m c)

theorem run : θ_run (defs (F := Ideal)) (onTc (τ := τ) (main (F := Ideal))) ⟨m, fun _ => 0, ρ⟩ fun r => ∀ c : Dev nD,
      r.2.mem ((c.tc : Thread nD τ).loc main_v117_0) = Cert.Voxel.voxOut (vox m c) (cnt m c)
    ∧ r.2.mem ((c.tc : Thread nD τ).loc main_v121) = Cert.Voxel.padOut (ucoord m c)
    ∧ r.2.mem ((c.tc : Thread nD τ).loc main_v120) = Cert.Voxel.maskOut (cnt m c)
    ∧ r.2.mem ((c.tc : Thread nD τ).loc main_v115) = V m c main_v115
    ∧ r.2.mem ((c.tc : Thread nD τ).loc main_arg0) = m ((c.tc : Thread nD τ).loc main_arg0) :=
  (θ_run defs _ _).mono (fun r h c => ⟨((h c).1 2).trans (final2 m c),
      ((h c).2 main_v121 (Pipeline.mem_restRefs_of main_v121 (by decide) (by decide))).trans (post_v121 m c),
      ((h c).2 main_v120 (Pipeline.mem_restRefs_of main_v120 (by decide) (by decide))).trans (post_v120 m c),
      ((h c).2 main_v115 (Pipeline.mem_restRefs_of main_v115 (by decide) (by decide))).trans (post_v115 m c),
      ((h c).2 main_arg0 (Pipeline.mem_restRefs_of main_arg0 (by decide) (by decide))).trans (W_main_arg0 m (dats m) c)⟩)
    (run_main m ρ)

end Cert.KernelIdeal.KV

end
-- ==== Proof.RefOps.lean ====
/-
  The reference's @main as lists of its host operations, in program order: the thirteen stretches that
  build the voxel buffer, the counts, the voxel coordinates and the voxel centres from the point cloud
  (a stretch of @main's own lines, then one per outlined function it calls: the range select, the argsort,
  the running sum, the running maximum, the three sentinel selects), and the last stretch, which decorates
  the voxel buffer (mask, centroid, masked offsets, the concatenation) and pads the coordinates.
-/
import proofs.«180918_j40785009443381_1_alg».proof.Proof.Gen.ReferenceIdeal
import Idealize.ShloMosaic.Lib.StableHlo.Run

noncomputable section

namespace Cert.ReferenceIdeal.RR

open Cert.ReferenceIdeal Cert.ReferenceIdeal.Gen Idealize.ShloMosaic Idealize.ShloMosaic.TcCoe Idealize.SL.Sem

variable {F : FTy → Type} [FloatOps F]

abbrev pre0 : List (HloOp τ sig (Elt F)) :=
  ( StableHlo.nullary main_cst (fun i => FloatOps.ofBits .f32 (lit0 (S3.rowMajor i)))
  :: StableHlo.nullary main_cst_0 (constant S3 .f32 0x3F000000#32)
  :: StableHlo.nullary main_cst_1 (fun i => FloatOps.ofBits .f32 (lit1 (S3.rowMajor i)))
  :: StableHlo.unary main_cst main_v0 (broadcastInDim S1x3 ![1] bcast_S3_S1x3_1 : (⟨S3, .f32⟩ : BufTy).Contents (Elt F) → (⟨S1x3, .f32⟩ : BufTy).Contents (Elt F))
  :: StableHlo.unary main_v0 main_v1 (broadcastInDim S1000000x3 ![0, 1] bcast_S1x3_S1000000x3_0_1 : (⟨S1x3, .f32⟩ : BufTy).Contents (Elt F) → (⟨S1000000x3, .f32⟩ : BufTy).Contents (Elt F))
  :: StableHlo.binary main_arg0 main_v1 main_v2 (subf : (⟨S1000000x3, .f32⟩ : BufTy).Contents (Elt F) → (⟨S1000000x3, .f32⟩ : BufTy).Contents (Elt F) → (⟨S1000000x3, .f32⟩ : BufTy).Contents (Elt F))
  :: StableHlo.unary main_cst_0 main_v3 (broadcastInDim S1x3 ![1] bcast_S3_S1x3_1 : (⟨S3, .f32⟩ : BufTy).Contents (Elt F) → (⟨S1x3, .f32⟩ : BufTy).Contents (Elt F))
  :: StableHlo.unary main_v3 main_v4 (broadcastInDim S1000000x3 ![0, 1] bcast_S1x3_S1000000x3_0_1 : (⟨S1x3, .f32⟩ : BufTy).Contents (Elt F) → (⟨S1000000x3, .f32⟩ : BufTy).Contents (Elt F))
  :: StableHlo.binary main_v2 main_v4 main_v5 (Host.divf : (⟨S1000000x3, .f32⟩ : BufTy).Contents (Elt F) → (⟨S1000000x3, .f32⟩ : BufTy).Contents (Elt F) → (⟨S1000000x3, .f32⟩ : BufTy).Contents (Elt F))
  :: StableHlo.unary main_v5 main_v6 (Host.floor : (⟨S1000000x3, .f32⟩ : BufTy).Contents (Elt F) → (⟨S1000000x3, .f32⟩ : BufTy).Contents (Elt F))
  :: StableHlo.unary main_v6 main_v7 (fptosi 32 : (⟨S1000000x3, .f32⟩ : BufTy).Contents (Elt F) → (⟨S1000000x3, .i32⟩ : BufTy).Contents (Elt F))
  :: StableHlo.binary main_cst_0 main_cst_1 main_v8 (mulf : (⟨S3, .f32⟩ : BufTy).Contents (Elt F) → (⟨S3, .f32⟩ : BufTy).Contents (Elt F) → (⟨S3, .f32⟩ : BufTy).Contents (Elt F))
  :: StableHlo.binary main_cst main_v8 main_v9 (addf : (⟨S3, .f32⟩ : BufTy).Contents (Elt F) → (⟨S3, .f32⟩ : BufTy).Contents (Elt F) → (⟨S3, .f32⟩ : BufTy).Contents (Elt F))
  :: StableHlo.unary main_cst main_v10 (broadcastInDim S1x3 ![1] bcast_S3_S1x3_1 : (⟨S3, .f32⟩ : BufTy).Contents (Elt F) → (⟨S1x3, .f32⟩ : BufTy).Contents (Elt F))
  :: StableHlo.unary main_v10 main_v11 (broadcastInDim S1000000x3 ![0, 1] bcast_S1x3_S1000000x3_0_1 : (⟨S1x3, .f32⟩ : BufTy).Contents (Elt F) → (⟨S1000000x3, .f32⟩ : BufTy).Contents (Elt F))
  :: StableHlo.binary main_arg0 main_v11 main_v12 (cmpf .oge : (⟨S1000000x3, .f32⟩ : BufTy).Contents (Elt F) → (⟨S1000000x3, .f32⟩ : BufTy).Contents (Elt F) → (⟨S1000000x3, .i1⟩ : BufTy).Contents (Elt F))
  :: StableHlo.unary main_v9 main_v13 (broadcastInDim S1x3 ![1] bcast_S3_S1x3_1 : (⟨S3, .f32⟩ : BufTy).Contents (Elt F) → (⟨S1x3, .f32⟩ : BufTy).Contents (Elt F))
  :: StableHlo.unary main_v13 main_v14 (broadcastInDim S1000000x3 ![0, 1] bcast_S1x3_S1000000x3_0_1 : (⟨S1x3, .f32⟩ : BufTy).Contents (Elt F) → (⟨S1000000x3, .f32⟩ : BufTy).Contents (Elt F))
  :: StableHlo.binary main_arg0 main_v14 main_v15 (cmpf .olt : (⟨S1000000x3, .f32⟩ : BufTy).Contents (Elt F) → (⟨S1000000x3, .f32⟩ : BufTy).Contents (Elt F) → (⟨S1000000x3, .i1⟩ : BufTy).Contents (Elt F))
  :: StableHlo.binary main_v12 main_v15 main_v16 (andi : (⟨S1000000x3, .i1⟩ : BufTy).Contents (Elt F) → (⟨S1000000x3, .i1⟩ : BufTy).Contents (Elt F) → (⟨S1000000x3, .i1⟩ : BufTy).Contents (Elt F))
  :: StableHlo.nullary main_c (constantI S_ 1 1#1)
  :: StableHlo.binary main_v16 main_c main_v17 ((fun x v => Host.reduce IntOp.andi x v reducesTo_S1000000x3_S1000000_d1 h_S_) : (⟨S1000000x3, .i1⟩ : BufTy).Contents (Elt F) → (⟨S_, .i1⟩ : BufTy).Contents (Elt F) → (⟨S1000000, .i1⟩ : BufTy).Contents (Elt F))
  :: StableHlo.unary main_v7 main_v18 ((extractStridedSlice S1000000x1 ![0, 0] · slices_S1000000x3_S1000000x1_0_0) : (⟨S1000000x3, .i32⟩ : BufTy).Contents (Elt F) → (⟨S1000000x1, .i32⟩ : BufTy).Contents (Elt F))
  :: StableHlo.reshape main_v18 main_v19 rfl shapeCasts_S1000000x1_S1000000
  :: StableHlo.nullary main_c_2 (constantI S_ 32 200#32)
  :: StableHlo.unary main_c_2 main_v20 (broadcastInDim S1000000 ![] bcast_S_S1000000 : (⟨S_, .i32⟩ : BufTy).Contents (Elt F) → (⟨S1000000, .i32⟩ : BufTy).Contents (Elt F))
  :: StableHlo.binary main_v19 main_v20 main_v21 (muli : (⟨S1000000, .i32⟩ : BufTy).Contents (Elt F) → (⟨S1000000, .i32⟩ : BufTy).Contents (Elt F) → (⟨S1000000, .i32⟩ : BufTy).Contents (Elt F))
  :: StableHlo.unary main_v7 main_v22 ((extractStridedSlice S1000000x1 ![0, 1] · slices_S1000000x3_S1000000x1_0_1) : (⟨S1000000x3, .i32⟩ : BufTy).Contents (Elt F) → (⟨S1000000x1, .i32⟩ : BufTy).Contents (Elt F))
  :: StableHlo.reshape main_v22 main_v23 rfl shapeCasts_S1000000x1_S1000000
  :: StableHlo.binary main_v21 main_v23 main_v24 (addi : (⟨S1000000, .i32⟩ : BufTy).Contents (Elt F) → (⟨S1000000, .i32⟩ : BufTy).Contents (Elt F) → (⟨S1000000, .i32⟩ : BufTy).Contents (Elt F))
  :: StableHlo.nullary main_c_3 (constantI S_ 32 12#32)
  :: StableHlo.unary main_c_3 main_v25 (broadcastInDim S1000000 ![] bcast_S_S1000000 : (⟨S_, .i32⟩ : BufTy).Contents (Elt F) → (⟨S1000000, .i32⟩ : BufTy).Contents (Elt F))
  :: StableHlo.binary main_v24 main_v25 main_v26 (muli : (⟨S1000000, .i32⟩ : BufTy).Contents (Elt F) → (⟨S1000000, .i32⟩ : BufTy).Contents (Elt F) → (⟨S1000000, .i32⟩ : BufTy).Contents (Elt F))
  :: StableHlo.unary main_v7 main_v27 ((extractStridedSlice S1000000x1 ![0, 2] · slices_S1000000x3_S1000000x1_0_2) : (⟨S1000000x3, .i32⟩ : BufTy).Contents (Elt F) → (⟨S1000000x1, .i32⟩ : BufTy).Contents (Elt F))
  :: StableHlo.reshape main_v27 main_v28 rfl shapeCasts_S1000000x1_S1000000
  :: StableHlo.binary main_v26 main_v28 main_v29 (addi : (⟨S1000000, .i32⟩ : BufTy).Contents (Elt F) → (⟨S1000000, .i32⟩ : BufTy).Contents (Elt F) → (⟨S1000000, .i32⟩ : BufTy).Contents (Elt F))
  :: StableHlo.nullary main_c_4 (constantI S_ 32 480000#32)
  :: [] )

abbrev pre1 : List (HloOp τ sig (Elt F)) :=
  [ StableHlo.TRef.unary (.of main_c_4 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1000000, .i32⟩) (broadcastInDim S1000000 ![] bcast_S_S1000000),
    StableHlo.TRef.ternary (.of main_v17 : StableHlo.TRef sig ⟨S1000000, .i1⟩) (.of main_v29 : StableHlo.TRef sig ⟨S1000000, .i32⟩) (.of main_call0_v1 : StableHlo.TRef sig ⟨S1000000, .i32⟩) (.of main_v30 : StableHlo.TRef sig ⟨S1000000, .i32⟩) select ]

abbrev pre2 : List (HloOp τ sig (Elt F)) :=
  [ StableHlo.TRef.nullary (.of main_call1_v0 : StableHlo.TRef sig ⟨S1000000, .i32⟩) (iotaInDim S1000000 32 0),
    StableHlo.TRef.binary (.of main_v30 : StableHlo.TRef sig ⟨S1000000, .i32⟩) (.of main_call1_v0 : StableHlo.TRef sig ⟨S1000000, .i32⟩) (.of main_call1_v1_0 : StableHlo.TRef sig ⟨S1000000, .i32⟩) (fun x y => (Host.sort2 S1000000 0 comparator_i32_i32_d0 x y).1),
    StableHlo.TRef.binary (.of main_v30 : StableHlo.TRef sig ⟨S1000000, .i32⟩) (.of main_call1_v0 : StableHlo.TRef sig ⟨S1000000, .i32⟩) (.of main_v31 : StableHlo.TRef sig ⟨S1000000, .i32⟩) (fun x y => (Host.sort2 S1000000 0 comparator_i32_i32_d0 x y).2) ]

abbrev pre3 : List (HloOp τ sig (Elt F)) :=
  ( StableHlo.nullary main_c_5 (constantI S_ 32 0#32)
  :: StableHlo.unary main_c_5 main_v32 (broadcastInDim S1000000 ![] bcast_S_S1000000 : (⟨S_, .i32⟩ : BufTy).Contents (Elt F) → (⟨S1000000, .i32⟩ : BufTy).Contents (Elt F))
  :: StableHlo.binary main_v31 main_v32 main_v33 (cmpi .slt : (⟨S1000000, .i32⟩ : BufTy).Contents (Elt F) → (⟨S1000000, .i32⟩ : BufTy).Contents (Elt F) → (⟨S1000000, .i1⟩ : BufTy).Contents (Elt F))
  :: StableHlo.nullary main_c_6 (constantI S_ 32 1000000#32)
  :: StableHlo.unary main_c_6 main_v34 (broadcastInDim S1000000 ![] bcast_S_S1000000 : (⟨S_, .i32⟩ : BufTy).Contents (Elt F) → (⟨S1000000, .i32⟩ : BufTy).Contents (Elt F))
  :: StableHlo.binary main_v31 main_v34 main_v35 (addi : (⟨S1000000, .i32⟩ : BufTy).Contents (Elt F) → (⟨S1000000, .i32⟩ : BufTy).Contents (Elt F) → (⟨S1000000, .i32⟩ : BufTy).Contents (Elt F))
  :: StableHlo.ternary main_v33 main_v35 main_v31 main_v36 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v36 main_v37 (broadcastInDim S1000000x1 ![0] bcast_S1000000_S1000000x1_0 : (⟨S1000000, .i32⟩ : BufTy).Contents (Elt F) → (⟨S1000000x1, .i32⟩ : BufTy).Contents (Elt F))
  :: StableHlo.binary main_v30 main_v37 main_v38 ((fun x i => Host.gather gather_S1000000_S1000000x1_S1000000_n_0_n_n_0_1_1 x i) : (⟨S1000000, .i32⟩ : BufTy).Contents (Elt F) → (⟨S1000000x1, .i32⟩ : BufTy).Contents (Elt F) → (⟨S1000000, .i32⟩ : BufTy).Contents (Elt F))
  :: StableHlo.nullary main_c_7 (constantI S_ 32 0#32)
  :: StableHlo.unary main_c_7 main_v39 (broadcastInDim S1000000 ![] bcast_S_S1000000 : (⟨S_, .i32⟩ : BufTy).Contents (Elt F) → (⟨S1000000, .i32⟩ : BufTy).Contents (Elt F))
  :: StableHlo.binary main_v31 main_v39 main_v40 (cmpi .slt : (⟨S1000000, .i32⟩ : BufTy).Contents (Elt F) → (⟨S1000000, .i32⟩ : BufTy).Contents (Elt F) → (⟨S1000000, .i1⟩ : BufTy).Contents (Elt F))
  :: StableHlo.nullary main_c_8 (constantI S_ 32 1000000#32)
  :: StableHlo.unary main_c_8 main_v41 (broadcastInDim S1000000 ![] bcast_S_S1000000 : (⟨S_, .i32⟩ : BufTy).Contents (Elt F) → (⟨S1000000, .i32⟩ : BufTy).Contents (Elt F))
  :: StableHlo.binary main_v31 main_v41 main_v42 (addi : (⟨S1000000, .i32⟩ : BufTy).Contents (Elt F) → (⟨S1000000, .i32⟩ : BufTy).Contents (Elt F) → (⟨S1000000, .i32⟩ : BufTy).Contents (Elt F))
  :: StableHlo.ternary main_v40 main_v42 main_v31 main_v43 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v43 main_v44 (broadcastInDim S1000000x1 ![0] bcast_S1000000_S1000000x1_0 : (⟨S1000000, .i32⟩ : BufTy).Contents (Elt F) → (⟨S1000000x1, .i32⟩ : BufTy).Contents (Elt F))
  :: StableHlo.binary main_arg0 main_v44 main_v45 ((fun x i => Host.gather gather_S1000000x3_S1000000x1_S1000000x3_1_0_n_n_0_1_13 x i) : (⟨S1000000x3, .f32⟩ : BufTy).Contents (Elt F) → (⟨S1000000x1, .i32⟩ : BufTy).Contents (Elt F) → (⟨S1000000x3, .f32⟩ : BufTy).Contents (Elt F))
  :: StableHlo.nullary main_c_9 (constantI S_ 32 0#32)
  :: StableHlo.unary main_c_9 main_v46 (broadcastInDim S1000000 ![] bcast_S_S1000000 : (⟨S_, .i32⟩ : BufTy).Contents (Elt F) → (⟨S1000000, .i32⟩ : BufTy).Contents (Elt F))
  :: StableHlo.binary main_v31 main_v46 main_v47 (cmpi .slt : (⟨S1000000, .i32⟩ : BufTy).Contents (Elt F) → (⟨S1000000, .i32⟩ : BufTy).Contents (Elt F) → (⟨S1000000, .i1⟩ : BufTy).Contents (Elt F))
  :: StableHlo.nullary main_c_10 (constantI S_ 32 1000000#32)
  :: StableHlo.unary main_c_10 main_v48 (broadcastInDim S1000000 ![] bcast_S_S1000000 : (⟨S_, .i32⟩ : BufTy).Contents (Elt F) → (⟨S1000000, .i32⟩ : BufTy).Contents (Elt F))
  :: StableHlo.binary main_v31 main_v48 main_v49 (addi : (⟨S1000000, .i32⟩ : BufTy).Contents (Elt F) → (⟨S1000000, .i32⟩ : BufTy).Contents (Elt F) → (⟨S1000000, .i32⟩ : BufTy).Contents (Elt F))
  :: StableHlo.ternary main_v47 main_v49 main_v31 main_v50 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v50 main_v51 (broadcastInDim S1000000x1 ![0] bcast_S1000000_S1000000x1_0 : (⟨S1000000, .i32⟩ : BufTy).Contents (Elt F) → (⟨S1000000x1, .i32⟩ : BufTy).Contents (Elt F))
  :: StableHlo.binary main_v7 main_v51 main_v52 ((fun x i => Host.gather gather_S1000000x3_S1000000x1_S1000000x3_1_0_n_n_0_1_13 x i) : (⟨S1000000x3, .i32⟩ : BufTy).Contents (Elt F) → (⟨S1000000x1, .i32⟩ : BufTy).Contents (Elt F) → (⟨S1000000x3, .i32⟩ : BufTy).Contents (Elt F))
  :: StableHlo.nullary main_c_11 (constantI S_ 32 480000#32)
  :: StableHlo.unary main_c_11 main_v53 (broadcastInDim S1000000 ![] bcast_S_S1000000 : (⟨S_, .i32⟩ : BufTy).Contents (Elt F) → (⟨S1000000, .i32⟩ : BufTy).Contents (Elt F))
  :: StableHlo.binary main_v38 main_v53 main_v54 (cmpi .slt : (⟨S1000000, .i32⟩ : BufTy).Contents (Elt F) → (⟨S1000000, .i32⟩ : BufTy).Contents (Elt F) → (⟨S1000000, .i1⟩ : BufTy).Contents (Elt F))
  :: StableHlo.nullary main_c_12 (constantI S_ 1 1#1)
  :: StableHlo.unary main_c_12 main_v55 (broadcastInDim S1 ![] bcast_S_S1 : (⟨S_, .i1⟩ : BufTy).Contents (Elt F) → (⟨S1, .i1⟩ : BufTy).Contents (Elt F))
  :: StableHlo.unary main_v38 main_v56 ((extractStridedSlice S999999 ![1] · slices_S1000000_S999999_1) : (⟨S1000000, .i32⟩ : BufTy).Contents (Elt F) → (⟨S999999, .i32⟩ : BufTy).Contents (Elt F))
  :: StableHlo.unary main_v38 main_v57 ((extractStridedSlice S999999 ![0] · slices_S1000000_S999999_0) : (⟨S1000000, .i32⟩ : BufTy).Contents (Elt F) → (⟨S999999, .i32⟩ : BufTy).Contents (Elt F))
  :: StableHlo.binary main_v56 main_v57 main_v58 (cmpi .ne : (⟨S999999, .i32⟩ : BufTy).Contents (Elt F) → (⟨S999999, .i32⟩ : BufTy).Contents (Elt F) → (⟨S999999, .i1⟩ : BufTy).Contents (Elt F))
  :: StableHlo.binary main_v55 main_v58 main_v59 ((fun a b => concatenate S1000000 0 [⟨S1, a⟩, ⟨S999999, b⟩] concatenates_S1_S999999_S1000000_d0) : (⟨S1, .i1⟩ : BufTy).Contents (Elt F) → (⟨S999999, .i1⟩ : BufTy).Contents (Elt F) → (⟨S1000000, .i1⟩ : BufTy).Contents (Elt F))
  :: StableHlo.unary main_v59 main_v60 ((extui 32 · natLt_1_32) : (⟨S1000000, .i1⟩ : BufTy).Contents (Elt F) → (⟨S1000000, .i32⟩ : BufTy).Contents (Elt F))
  :: [] )

abbrev pre4 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v60 : StableHlo.TRef sig ⟨S1000000, .i32⟩) (.of main_call2_call0_v0 : StableHlo.TRef sig ⟨S_, .i32⟩) (.of main_v61 : StableHlo.TRef sig ⟨S1000000, .i32⟩) (fun x v => Host.reduceWindow IntOp.addi ![1000000] ![1] ![999999] ![0] x v reduceWindows_S1000000_S1000000_w1000000s1p999999_0 h_S_) ]

abbrev pre5 : List (HloOp τ sig (Elt F)) :=
  [ StableHlo.nullary main_c_13 (constantI S_ 32 1#32),
    StableHlo.unary main_c_13 main_v62 (broadcastInDim S1000000 ![] bcast_S_S1000000 : (⟨S_, .i32⟩ : BufTy).Contents (Elt F) → (⟨S1000000, .i32⟩ : BufTy).Contents (Elt F)),
    StableHlo.binary main_v61 main_v62 main_v63 (subi : (⟨S1000000, .i32⟩ : BufTy).Contents (Elt F) → (⟨S1000000, .i32⟩ : BufTy).Contents (Elt F) → (⟨S1000000, .i32⟩ : BufTy).Contents (Elt F)),
    StableHlo.nullary main_v64 (iotaInDim S1000000 32 0),
    StableHlo.nullary main_c_14 (constantI S_ 32 0#32) ]

abbrev pre6 : List (HloOp τ sig (Elt F)) :=
  [ StableHlo.TRef.unary (.of main_c_14 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S1000000, .i32⟩) (broadcastInDim S1000000 ![] bcast_S_S1000000),
    StableHlo.TRef.ternary (.of main_v59 : StableHlo.TRef sig ⟨S1000000, .i1⟩) (.of main_v64 : StableHlo.TRef sig ⟨S1000000, .i32⟩) (.of main_call3_v1 : StableHlo.TRef sig ⟨S1000000, .i32⟩) (.of main_v65 : StableHlo.TRef sig ⟨S1000000, .i32⟩) select ]

abbrev pre7 : List (HloOp τ sig (Elt F)) :=
  [ StableHlo.TRef.nullary (.of main_call4_c : StableHlo.TRef sig ⟨S_, .i32⟩) (constantI S_ 32 2147483648#32),
    StableHlo.TRef.unary (.of main_call4_c : StableHlo.TRef sig ⟨S_, .i32⟩) (.of main_call4_v0 : StableHlo.TRef sig ⟨S_, .i32⟩) (broadcastInDim S_ ![] bcast_S_S_),
    StableHlo.TRef.binary (.of main_v65 : StableHlo.TRef sig ⟨S1000000, .i32⟩) (.of main_call4_v0 : StableHlo.TRef sig ⟨S_, .i32⟩) (.of main_v66 : StableHlo.TRef sig ⟨S1000000, .i32⟩) (fun x v => Host.reduceWindow IntOp.maxsi ![1000000] ![1] ![999999] ![0] x v reduceWindows_S1000000_S1000000_w1000000s1p999999_0 h_S_) ]

abbrev pre8 : List (HloOp τ sig (Elt F)) :=
  [ StableHlo.binary main_v64 main_v66 main_v67 (subi : (⟨S1000000, .i32⟩ : BufTy).Contents (Elt F) → (⟨S1000000, .i32⟩ : BufTy).Contents (Elt F) → (⟨S1000000, .i32⟩ : BufTy).Contents (Elt F)),
    StableHlo.nullary main_c_15 (constantI S_ 32 500000#32) ]

abbrev pre9 : List (HloOp τ sig (Elt F)) :=
  [ StableHlo.TRef.unary (.of main_c_15 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S1000000, .i32⟩) (broadcastInDim S1000000 ![] bcast_S_S1000000),
    StableHlo.TRef.ternary (.of main_v54 : StableHlo.TRef sig ⟨S1000000, .i1⟩) (.of main_v63 : StableHlo.TRef sig ⟨S1000000, .i32⟩) (.of main_call5_v1 : StableHlo.TRef sig ⟨S1000000, .i32⟩) (.of main_v68 : StableHlo.TRef sig ⟨S1000000, .i32⟩) select ]

abbrev pre10 : List (HloOp τ sig (Elt F)) :=
  ( StableHlo.nullary main_cst_16 (constant S_ .f32 0x00000000#32)
  :: StableHlo.unary main_cst_16 main_v69 (broadcastInDim S500000x32x3 ![] bcast_S_S500000x32x3 : (⟨S_, .f32⟩ : BufTy).Contents (Elt F) → (⟨S500000x32x3, .f32⟩ : BufTy).Contents (Elt F))
  :: StableHlo.nullary main_c_17 (constantI S_ 32 0#32)
  :: StableHlo.unary main_c_17 main_v70 (broadcastInDim S1000000 ![] bcast_S_S1000000 : (⟨S_, .i32⟩ : BufTy).Contents (Elt F) → (⟨S1000000, .i32⟩ : BufTy).Contents (Elt F))
  :: StableHlo.binary main_v68 main_v70 main_v71 (cmpi .slt : (⟨S1000000, .i32⟩ : BufTy).Contents (Elt F) → (⟨S1000000, .i32⟩ : BufTy).Contents (Elt F) → (⟨S1000000, .i1⟩ : BufTy).Contents (Elt F))
  :: StableHlo.nullary main_c_18 (constantI S_ 32 500000#32)
  :: StableHlo.unary main_c_18 main_v72 (broadcastInDim S1000000 ![] bcast_S_S1000000 : (⟨S_, .i32⟩ : BufTy).Contents (Elt F) → (⟨S1000000, .i32⟩ : BufTy).Contents (Elt F))
  :: StableHlo.binary main_v68 main_v72 main_v73 (addi : (⟨S1000000, .i32⟩ : BufTy).Contents (Elt F) → (⟨S1000000, .i32⟩ : BufTy).Contents (Elt F) → (⟨S1000000, .i32⟩ : BufTy).Contents (Elt F))
  :: StableHlo.ternary main_v71 main_v73 main_v68 main_v74 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.nullary main_c_19 (constantI S_ 32 0#32)
  :: StableHlo.unary main_c_19 main_v75 (broadcastInDim S1000000 ![] bcast_S_S1000000 : (⟨S_, .i32⟩ : BufTy).Contents (Elt F) → (⟨S1000000, .i32⟩ : BufTy).Contents (Elt F))
  :: StableHlo.binary main_v67 main_v75 main_v76 (cmpi .slt : (⟨S1000000, .i32⟩ : BufTy).Contents (Elt F) → (⟨S1000000, .i32⟩ : BufTy).Contents (Elt F) → (⟨S1000000, .i1⟩ : BufTy).Contents (Elt F))
  :: StableHlo.nullary main_c_20 (constantI S_ 32 32#32)
  :: StableHlo.unary main_c_20 main_v77 (broadcastInDim S1000000 ![] bcast_S_S1000000 : (⟨S_, .i32⟩ : BufTy).Contents (Elt F) → (⟨S1000000, .i32⟩ : BufTy).Contents (Elt F))
  :: StableHlo.binary main_v67 main_v77 main_v78 (addi : (⟨S1000000, .i32⟩ : BufTy).Contents (Elt F) → (⟨S1000000, .i32⟩ : BufTy).Contents (Elt F) → (⟨S1000000, .i32⟩ : BufTy).Contents (Elt F))
  :: StableHlo.ternary main_v76 main_v78 main_v67 main_v79 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v74 main_v80 (broadcastInDim S1000000x1 ![0] bcast_S1000000_S1000000x1_0 : (⟨S1000000, .i32⟩ : BufTy).Contents (Elt F) → (⟨S1000000x1, .i32⟩ : BufTy).Contents (Elt F))
  :: StableHlo.unary main_v79 main_v81 (broadcastInDim S1000000x1 ![0] bcast_S1000000_S1000000x1_0 : (⟨S1000000, .i32⟩ : BufTy).Contents (Elt F) → (⟨S1000000x1, .i32⟩ : BufTy).Contents (Elt F))
  :: StableHlo.binary main_v80 main_v81 main_v82 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F))
  :: StableHlo.ternary main_v69 main_v82 main_v45 main_v83 ((fun x i u => Host.scatter scatter_S500000x32x3_S1000000x2_S1000000x3_1_01_01_1 (fun _ b => b) x i u) : (⟨S500000x32x3, .f32⟩ : BufTy).Contents (Elt F) → (⟨S1000000x2, .i32⟩ : BufTy).Contents (Elt F) → (⟨S1000000x3, .f32⟩ : BufTy).Contents (Elt F) → (⟨S500000x32x3, .f32⟩ : BufTy).Contents (Elt F))
  :: StableHlo.nullary main_c_21 (constantI S_ 32 32#32)
  :: StableHlo.unary main_c_21 main_v84 (broadcastInDim S1000000 ![] bcast_S_S1000000 : (⟨S_, .i32⟩ : BufTy).Contents (Elt F) → (⟨S1000000, .i32⟩ : BufTy).Contents (Elt F))
  :: StableHlo.binary main_v67 main_v84 main_v85 (cmpi .slt : (⟨S1000000, .i32⟩ : BufTy).Contents (Elt F) → (⟨S1000000, .i32⟩ : BufTy).Contents (Elt F) → (⟨S1000000, .i1⟩ : BufTy).Contents (Elt F))
  :: StableHlo.binary main_v54 main_v85 main_v86 (andi : (⟨S1000000, .i1⟩ : BufTy).Contents (Elt F) → (⟨S1000000, .i1⟩ : BufTy).Contents (Elt F) → (⟨S1000000, .i1⟩ : BufTy).Contents (Elt F))
  :: StableHlo.unary main_v86 main_v87 ((extui 32 · natLt_1_32) : (⟨S1000000, .i1⟩ : BufTy).Contents (Elt F) → (⟨S1000000, .i32⟩ : BufTy).Contents (Elt F))
  :: StableHlo.nullary main_c_22 (constantI S_ 32 0#32)
  :: StableHlo.unary main_c_22 main_v88 (broadcastInDim S500000 ![] bcast_S_S500000 : (⟨S_, .i32⟩ : BufTy).Contents (Elt F) → (⟨S500000, .i32⟩ : BufTy).Contents (Elt F))
  :: StableHlo.nullary main_c_23 (constantI S_ 32 0#32)
  :: StableHlo.unary main_c_23 main_v89 (broadcastInDim S1000000 ![] bcast_S_S1000000 : (⟨S_, .i32⟩ : BufTy).Contents (Elt F) → (⟨S1000000, .i32⟩ : BufTy).Contents (Elt F))
  :: StableHlo.binary main_v68 main_v89 main_v90 (cmpi .slt : (⟨S1000000, .i32⟩ : BufTy).Contents (Elt F) → (⟨S1000000, .i32⟩ : BufTy).Contents (Elt F) → (⟨S1000000, .i1⟩ : BufTy).Contents (Elt F))
  :: StableHlo.nullary main_c_24 (constantI S_ 32 500000#32)
  :: StableHlo.unary main_c_24 main_v91 (broadcastInDim S1000000 ![] bcast_S_S1000000 : (⟨S_, .i32⟩ : BufTy).Contents (Elt F) → (⟨S1000000, .i32⟩ : BufTy).Contents (Elt F))
  :: StableHlo.binary main_v68 main_v91 main_v92 (addi : (⟨S1000000, .i32⟩ : BufTy).Contents (Elt F) → (⟨S1000000, .i32⟩ : BufTy).Contents (Elt F) → (⟨S1000000, .i32⟩ : BufTy).Contents (Elt F))
  :: StableHlo.ternary main_v90 main_v92 main_v68 main_v93 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F))
  :: StableHlo.unary main_v93 main_v94 (broadcastInDim S1000000x1 ![0] bcast_S1000000_S1000000x1_0 : (⟨S1000000, .i32⟩ : BufTy).Contents (Elt F) → (⟨S1000000x1, .i32⟩ : BufTy).Contents (Elt F))
  :: StableHlo.ternary main_v88 main_v94 main_v87 main_v95 ((fun x i u => Host.scatter scatter_S500000_S1000000x1_S1000000_n_0_0_1 IntOp.addi x i u) : (⟨S500000, .i32⟩ : BufTy).Contents (Elt F) → (⟨S1000000x1, .i32⟩ : BufTy).Contents (Elt F) → (⟨S1000000, .i32⟩ : BufTy).Contents (Elt F) → (⟨S500000, .i32⟩ : BufTy).Contents (Elt F))
  :: StableHlo.binary main_v59 main_v54 main_v96 (andi : (⟨S1000000, .i1⟩ : BufTy).Contents (Elt F) → (⟨S1000000, .i1⟩ : BufTy).Contents (Elt F) → (⟨S1000000, .i1⟩ : BufTy).Contents (Elt F))
  :: StableHlo.nullary main_c_25 (constantI S_ 32 500000#32)
  :: [] )

abbrev pre11 : List (HloOp τ sig (Elt F)) :=
  [ StableHlo.TRef.unary (.of main_c_25 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S1000000, .i32⟩) (broadcastInDim S1000000 ![] bcast_S_S1000000),
    StableHlo.TRef.ternary (.of main_v96 : StableHlo.TRef sig ⟨S1000000, .i1⟩) (.of main_v63 : StableHlo.TRef sig ⟨S1000000, .i32⟩) (.of main_call6_v1 : StableHlo.TRef sig ⟨S1000000, .i32⟩) (.of main_v97 : StableHlo.TRef sig ⟨S1000000, .i32⟩) select ]

abbrev pre12 : List (HloOp τ sig (Elt F)) :=
  [ StableHlo.nullary main_c_26 (constantI S_ 32 0#32),
    StableHlo.unary main_c_26 main_v98 (broadcastInDim S500000x3 ![] bcast_S_S500000x3 : (⟨S_, .i32⟩ : BufTy).Contents (Elt F) → (⟨S500000x3, .i32⟩ : BufTy).Contents (Elt F)),
    StableHlo.nullary main_c_27 (constantI S_ 32 0#32),
    StableHlo.unary main_c_27 main_v99 (broadcastInDim S1000000 ![] bcast_S_S1000000 : (⟨S_, .i32⟩ : BufTy).Contents (Elt F) → (⟨S1000000, .i32⟩ : BufTy).Contents (Elt F)),
    StableHlo.binary main_v97 main_v99 main_v100 (cmpi .slt : (⟨S1000000, .i32⟩ : BufTy).Contents (Elt F) → (⟨S1000000, .i32⟩ : BufTy).Contents (Elt F) → (⟨S1000000, .i1⟩ : BufTy).Contents (Elt F)),
    StableHlo.nullary main_c_28 (constantI S_ 32 500000#32),
    StableHlo.unary main_c_28 main_v101 (broadcastInDim S1000000 ![] bcast_S_S1000000 : (⟨S_, .i32⟩ : BufTy).Contents (Elt F) → (⟨S1000000, .i32⟩ : BufTy).Contents (Elt F)),
    StableHlo.binary main_v97 main_v101 main_v102 (addi : (⟨S1000000, .i32⟩ : BufTy).Contents (Elt F) → (⟨S1000000, .i32⟩ : BufTy).Contents (Elt F) → (⟨S1000000, .i32⟩ : BufTy).Contents (Elt F)),
    StableHlo.ternary main_v100 main_v102 main_v97 main_v103 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v103 main_v104 (broadcastInDim S1000000x1 ![0] bcast_S1000000_S1000000x1_0 : (⟨S1000000, .i32⟩ : BufTy).Contents (Elt F) → (⟨S1000000x1, .i32⟩ : BufTy).Contents (Elt F)),
    StableHlo.ternary main_v98 main_v104 main_v52 main_v105 ((fun x i u => Host.scatter scatter_S500000x3_S1000000x1_S1000000x3_1_0_0_1 (fun _ b => b) x i u) : (⟨S500000x3, .i32⟩ : BufTy).Contents (Elt F) → (⟨S1000000x1, .i32⟩ : BufTy).Contents (Elt F) → (⟨S1000000x3, .i32⟩ : BufTy).Contents (Elt F) → (⟨S500000x3, .i32⟩ : BufTy).Contents (Elt F)),
    StableHlo.unary main_v105 main_v106 (sitofp .f32 : (⟨S500000x3, .i32⟩ : BufTy).Contents (Elt F) → (⟨S500000x3, .f32⟩ : BufTy).Contents (Elt F)),
    StableHlo.unary main_cst_0 main_v107 (broadcastInDim S1x3 ![1] bcast_S3_S1x3_1 : (⟨S3, .f32⟩ : BufTy).Contents (Elt F) → (⟨S1x3, .f32⟩ : BufTy).Contents (Elt F)),
    StableHlo.unary main_v107 main_v108 (broadcastInDim S500000x3 ![0, 1] bcast_S1x3_S500000x3_0_1 : (⟨S1x3, .f32⟩ : BufTy).Contents (Elt F) → (⟨S500000x3, .f32⟩ : BufTy).Contents (Elt F)),
    StableHlo.binary main_v106 main_v108 main_v109 (mulf : (⟨S500000x3, .f32⟩ : BufTy).Contents (Elt F) → (⟨S500000x3, .f32⟩ : BufTy).Contents (Elt F) → (⟨S500000x3, .f32⟩ : BufTy).Contents (Elt F)),
    StableHlo.nullary main_cst_29 (constant S_ .f32 0x40000000#32),
    StableHlo.unary main_cst_29 main_v110 (broadcastInDim S3 ![] bcast_S_S3 : (⟨S_, .f32⟩ : BufTy).Contents (Elt F) → (⟨S3, .f32⟩ : BufTy).Contents (Elt F)),
    StableHlo.binary main_cst_0 main_v110 main_v111 (Host.divf : (⟨S3, .f32⟩ : BufTy).Contents (Elt F) → (⟨S3, .f32⟩ : BufTy).Contents (Elt F) → (⟨S3, .f32⟩ : BufTy).Contents (Elt F)),
    StableHlo.binary main_cst main_v111 main_v112 (addf : (⟨S3, .f32⟩ : BufTy).Contents (Elt F) → (⟨S3, .f32⟩ : BufTy).Contents (Elt F) → (⟨S3, .f32⟩ : BufTy).Contents (Elt F)),
    StableHlo.unary main_v112 main_v113 (broadcastInDim S1x3 ![1] bcast_S3_S1x3_1 : (⟨S3, .f32⟩ : BufTy).Contents (Elt F) → (⟨S1x3, .f32⟩ : BufTy).Contents (Elt F)),
    StableHlo.unary main_v113 main_v114 (broadcastInDim S500000x3 ![0, 1] bcast_S1x3_S500000x3_0_1 : (⟨S1x3, .f32⟩ : BufTy).Contents (Elt F) → (⟨S500000x3, .f32⟩ : BufTy).Contents (Elt F)),
    StableHlo.binary main_v109 main_v114 main_v115 (addf : (⟨S500000x3, .f32⟩ : BufTy).Contents (Elt F) → (⟨S500000x3, .f32⟩ : BufTy).Contents (Elt F) → (⟨S500000x3, .f32⟩ : BufTy).Contents (Elt F)) ]

/-- The decoration of the voxel buffer and the padding of the coordinates. -/
abbrev tailOps : List (HloOp τ sig (Elt F)) :=
  [ StableHlo.nullary main_v116 (iotaInDim S32 32 0),
    StableHlo.unary main_v116 main_v117 (broadcastInDim S1x32 ![1] bcast_S32_S1x32_1 : (⟨S32, .i32⟩ : BufTy).Contents (Elt F) → (⟨S1x32, .i32⟩ : BufTy).Contents (Elt F)),
    StableHlo.unary main_v95 main_v118 (broadcastInDim S500000x1 ![0] bcast_S500000_S500000x1_0 : (⟨S500000, .i32⟩ : BufTy).Contents (Elt F) → (⟨S500000x1, .i32⟩ : BufTy).Contents (Elt F)),
    StableHlo.unary main_v117 main_v119 (broadcastInDim S500000x32 ![0, 1] bcast_S1x32_S500000x32_0_1 : (⟨S1x32, .i32⟩ : BufTy).Contents (Elt F) → (⟨S500000x32, .i32⟩ : BufTy).Contents (Elt F)),
    StableHlo.unary main_v118 main_v120 (broadcastInDim S500000x32 ![0, 1] bcast_S500000x1_S500000x32_0_1 : (⟨S500000x1, .i32⟩ : BufTy).Contents (Elt F) → (⟨S500000x32, .i32⟩ : BufTy).Contents (Elt F)),
    StableHlo.binary main_v119 main_v120 main_v121 (cmpi .slt : (⟨S500000x32, .i32⟩ : BufTy).Contents (Elt F) → (⟨S500000x32, .i32⟩ : BufTy).Contents (Elt F) → (⟨S500000x32, .i1⟩ : BufTy).Contents (Elt F)),
    StableHlo.nullary main_c_30 (constantI S_ 32 1#32),
    StableHlo.unary main_c_30 main_v122 (broadcastInDim S500000 ![] bcast_S_S500000 : (⟨S_, .i32⟩ : BufTy).Contents (Elt F) → (⟨S500000, .i32⟩ : BufTy).Contents (Elt F)),
    StableHlo.binary main_v95 main_v122 main_v123 (maxsi : (⟨S500000, .i32⟩ : BufTy).Contents (Elt F) → (⟨S500000, .i32⟩ : BufTy).Contents (Elt F) → (⟨S500000, .i32⟩ : BufTy).Contents (Elt F)),
    StableHlo.unary main_v123 main_v124 (sitofp .f32 : (⟨S500000, .i32⟩ : BufTy).Contents (Elt F) → (⟨S500000, .f32⟩ : BufTy).Contents (Elt F)),
    StableHlo.nullary main_cst_31 (constant S_ .f32 0x00000000#32),
    StableHlo.binary main_v83 main_cst_31 main_v125 ((fun x v => Host.reduceAdd x v reducesTo_S500000x32x3_S500000x3_d1 h_S_) : (⟨S500000x32x3, .f32⟩ : BufTy).Contents (Elt F) → (⟨S_, .f32⟩ : BufTy).Contents (Elt F) → (⟨S500000x3, .f32⟩ : BufTy).Contents (Elt F)),
    StableHlo.unary main_v125 main_v126 (broadcastInDim S500000x1x3 ![0, 2] bcast_S500000x3_S500000x1x3_0_2 : (⟨S500000x3, .f32⟩ : BufTy).Contents (Elt F) → (⟨S500000x1x3, .f32⟩ : BufTy).Contents (Elt F)),
    StableHlo.unary main_v124 main_v127 (broadcastInDim S500000x1x1 ![0] bcast_S500000_S500000x1x1_0 : (⟨S500000, .f32⟩ : BufTy).Contents (Elt F) → (⟨S500000x1x1, .f32⟩ : BufTy).Contents (Elt F)),
    StableHlo.unary main_v127 main_v128 (broadcastInDim S500000x1x3 ![0, 1, 2] bcast_S500000x1x1_S500000x1x3_0_1_2 : (⟨S500000x1x1, .f32⟩ : BufTy).Contents (Elt F) → (⟨S500000x1x3, .f32⟩ : BufTy).Contents (Elt F)),
    StableHlo.binary main_v126 main_v128 main_v129 (Host.divf : (⟨S500000x1x3, .f32⟩ : BufTy).Contents (Elt F) → (⟨S500000x1x3, .f32⟩ : BufTy).Contents (Elt F) → (⟨S500000x1x3, .f32⟩ : BufTy).Contents (Elt F)),
    StableHlo.unary main_v129 main_v130 (broadcastInDim S500000x32x3 ![0, 1, 2] bcast_S500000x1x3_S500000x32x3_0_1_2 : (⟨S500000x1x3, .f32⟩ : BufTy).Contents (Elt F) → (⟨S500000x32x3, .f32⟩ : BufTy).Contents (Elt F)),
    StableHlo.binary main_v83 main_v130 main_v131 (subf : (⟨S500000x32x3, .f32⟩ : BufTy).Contents (Elt F) → (⟨S500000x32x3, .f32⟩ : BufTy).Contents (Elt F) → (⟨S500000x32x3, .f32⟩ : BufTy).Contents (Elt F)),
    StableHlo.unary main_v121 main_v132 (broadcastInDim S500000x32x1 ![0, 1] bcast_S500000x32_S500000x32x1_0_1 : (⟨S500000x32, .i1⟩ : BufTy).Contents (Elt F) → (⟨S500000x32x1, .i1⟩ : BufTy).Contents (Elt F)),
    StableHlo.unary main_v132 main_v133 (uitofp .f32 : (⟨S500000x32x1, .i1⟩ : BufTy).Contents (Elt F) → (⟨S500000x32x1, .f32⟩ : BufTy).Contents (Elt F)),
    StableHlo.unary main_v133 main_v134 (broadcastInDim S500000x32x3 ![0, 1, 2] bcast_S500000x32x1_S500000x32x3_0_1_2 : (⟨S500000x32x1, .f32⟩ : BufTy).Contents (Elt F) → (⟨S500000x32x3, .f32⟩ : BufTy).Contents (Elt F)),
    StableHlo.binary main_v131 main_v134 main_v135 (mulf : (⟨S500000x32x3, .f32⟩ : BufTy).Contents (Elt F) → (⟨S500000x32x3, .f32⟩ : BufTy).Contents (Elt F) → (⟨S500000x32x3, .f32⟩ : BufTy).Contents (Elt F)),
    StableHlo.binary main_v83 main_v135 main_v136 ((fun a b => concatenate S500000x32x6 2 [⟨S500000x32x3, a⟩, ⟨S500000x32x3, b⟩] concatenates_S500000x32x3_S500000x32x3_S500000x32x6_d2) : (⟨S500000x32x3, .f32⟩ : BufTy).Contents (Elt F) → (⟨S500000x32x3, .f32⟩ : BufTy).Contents (Elt F) → (⟨S500000x32x6, .f32⟩ : BufTy).Contents (Elt F)),
    StableHlo.nullary main_c_32 (constantI S_ 32 0#32),
    StableHlo.TRef.unary (.of main_c_32 : StableHlo.TRef sig ⟨S_, .i32⟩) (.of main_call7_v0 : StableHlo.TRef sig ⟨S_, .i32⟩) id,
    StableHlo.TRef.binary (.of main_v105 : StableHlo.TRef sig ⟨S500000x3, .i32⟩) (.of main_call7_v0 : StableHlo.TRef sig ⟨S_, .i32⟩) (.of main_v137 : StableHlo.TRef sig ⟨S500000x4, .i32⟩) (fun x v => pad S500000x4 ![0, 1] ![0, 0] ![0, 0] x v pads_S500000x3_S500000x4_000_100 h_S_) ]

/-- Everything before the decoration. -/
abbrev prefixOps : List (HloOp τ sig (Elt F)) :=
  List.flatten [pre0, pre1, pre2, pre3, pre4, pre5, pre6, pre7, pre8, pre9, pre10, pre11, pre12]

/-- @main's operations, in order. -/
abbrev ops : List (HloOp τ sig (Elt F)) := prefixOps ++ tailOps

end Cert.ReferenceIdeal.RR

end
-- ==== Proof.RefRun.lean ====
/-
  The reference's run: @main is the straight line of its operations, so every weakly fair execution ends
  with each buffer at the operations' fold over the launch contents; no operation writes the argument.
-/
import proofs.«180918_j40785009443381_1_alg».proof.Proof.RefOps
import proofs.«180918_j40785009443381_1_alg».proof.Proof.LibAfter
import Idealize.ShloMosaic.Lib.Pipeline.Regions

-- a piece's conjunction nests once per operation, thirty-eight deep at the longest
set_option maxRecDepth 4096

noncomputable section

namespace Cert.ReferenceIdeal.RR

open Cert.ReferenceIdeal Cert.ReferenceIdeal.Gen Idealize.ShloMosaic Idealize.ShloMosaic.TcCoe Idealize.SL.Sem

variable {F : FTy → Type} [FloatOps F]

/-- @main is the straight line of its operations: its three windows in order, each outlined function's body standing
    at its call with the call's buffers for the body's values, are one right-nested sequence of single steps, and so is
    the line over the concatenated list; the two agree step by step, by unfolding alone. -/
theorem main_eq (c : Dev nD) : main (F := F) c = StableHlo.seq ops := by
  chain_rfl

namespace Line

/-! ## A property of every piece is a property of every operation -/

/-- The list of operations is the concatenation of the thirteen stretches before the decoration and the decoration's
    own; a member of it is a member of one of the fourteen, so what holds throughout each holds throughout. -/
theorem forall_ops {p : HloOp τ sig (Elt F) → Prop}
    (h0 : (pre0 : List (HloOp τ sig (Elt F))).Forall p)
    (h1 : (pre1 : List (HloOp τ sig (Elt F))).Forall p)
    (h2 : (pre2 : List (HloOp τ sig (Elt F))).Forall p)
    (h3 : (pre3 : List (HloOp τ sig (Elt F))).Forall p)
    (h4 : (pre4 : List (HloOp τ sig (Elt F))).Forall p)
    (h5 : (pre5 : List (HloOp τ sig (Elt F))).Forall p)
    (h6 : (pre6 : List (HloOp τ sig (Elt F))).Forall p)
    (h7 : (pre7 : List (HloOp τ sig (Elt F))).Forall p)
    (h8 : (pre8 : List (HloOp τ sig (Elt F))).Forall p)
    (h9 : (pre9 : List (HloOp τ sig (Elt F))).Forall p)
    (h10 : (pre10 : List (HloOp τ sig (Elt F))).Forall p)
    (h11 : (pre11 : List (HloOp τ sig (Elt F))).Forall p)
    (h12 : (pre12 : List (HloOp τ sig (Elt F))).Forall p)
    (h13 : (tailOps : List (HloOp τ sig (Elt F))).Forall p) :
    ∀ op ∈ (ops : List (HloOp τ sig (Elt F))), p op := by
  intro op hop
  rcases List.mem_append.mp hop with h | h
  · obtain ⟨l, hl, hal⟩ := List.mem_flatten.mp h
    simp only [List.mem_cons, List.mem_nil_iff, or_false] at hl
    rcases hl with rfl | rfl | rfl | rfl | rfl | rfl | rfl | rfl | rfl | rfl | rfl | rfl | rfl
    · exact List.forall_iff_forall_mem.mp h0 op hal
    · exact List.forall_iff_forall_mem.mp h1 op hal
    · exact List.forall_iff_forall_mem.mp h2 op hal
    · exact List.forall_iff_forall_mem.mp h3 op hal
    · exact List.forall_iff_forall_mem.mp h4 op hal
    · exact List.forall_iff_forall_mem.mp h5 op hal
    · exact List.forall_iff_forall_mem.mp h6 op hal
    · exact List.forall_iff_forall_mem.mp h7 op hal
    · exact List.forall_iff_forall_mem.mp h8 op hal
    · exact List.forall_iff_forall_mem.mp h9 op hal
    · exact List.forall_iff_forall_mem.mp h10 op hal
    · exact List.forall_iff_forall_mem.mp h11 op hal
    · exact List.forall_iff_forall_mem.mp h12 op hal
  · exact List.forall_iff_forall_mem.mp h13 op h

/-! ## Each piece touches TensorCore buffers only

Every operation is one of the builders over TensorCore references, and a builder's buffers are its operands' and its
result's: per piece, the builders' facts in the order of the operations. -/

theorem pre0_sub : (pre0 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.unary_bufs_sub ..,
    StableHlo.binary_bufs_sub .., StableHlo.unary_bufs_sub .., StableHlo.unary_bufs_sub .., StableHlo.binary_bufs_sub .., StableHlo.unary_bufs_sub ..,
    StableHlo.unary_bufs_sub .., StableHlo.binary_bufs_sub .., StableHlo.binary_bufs_sub .., StableHlo.unary_bufs_sub .., StableHlo.unary_bufs_sub ..,
    StableHlo.binary_bufs_sub .., StableHlo.unary_bufs_sub .., StableHlo.unary_bufs_sub .., StableHlo.binary_bufs_sub .., StableHlo.binary_bufs_sub ..,
    StableHlo.nullary_bufs_sub .., StableHlo.binary_bufs_sub .., StableHlo.unary_bufs_sub .., StableHlo.reshape_bufs_sub .., StableHlo.nullary_bufs_sub ..,
    StableHlo.unary_bufs_sub .., StableHlo.binary_bufs_sub .., StableHlo.unary_bufs_sub .., StableHlo.reshape_bufs_sub .., StableHlo.binary_bufs_sub ..,
    StableHlo.nullary_bufs_sub .., StableHlo.unary_bufs_sub .., StableHlo.binary_bufs_sub .., StableHlo.unary_bufs_sub .., StableHlo.reshape_bufs_sub ..,
    StableHlo.binary_bufs_sub .., StableHlo.nullary_bufs_sub ..⟩

theorem pre1_sub : (pre1 : List (HloOp τ sig (Elt F))).Forall fun op => op.bufs ⊆ StableHlo.tcRefs τ sig :=
  ⟨StableHlo.unary_bufs_sub .., StableHlo.unary_bufs_sub .., StableHlo.ternary_bufs_sub ..⟩

theorem pre2_sub : (pre2 : List (HloOp τ sig (Elt F))).Forall fun op => op.bufs ⊆ StableHlo.tcRefs τ sig :=
  ⟨StableHlo.nullary_bufs_sub .., StableHlo.binary_bufs_sub .., StableHlo.binary_bufs_sub ..⟩

theorem pre3_sub : (pre3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.unary_bufs_sub .., StableHlo.unary_bufs_sub .., StableHlo.binary_bufs_sub ..,
    StableHlo.binary_bufs_sub .., StableHlo.unary_bufs_sub ..⟩

theorem pre4_sub : (pre4 : List (HloOp τ sig (Elt F))).Forall fun op => op.bufs ⊆ StableHlo.tcRefs τ sig :=
  ⟨StableHlo.nullary_bufs_sub .., StableHlo.unary_bufs_sub .., StableHlo.binary_bufs_sub ..⟩

theorem pre5_sub : (pre5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩

theorem pre6_sub : (pre6 : List (HloOp τ sig (Elt F))).Forall fun op => op.bufs ⊆ StableHlo.tcRefs τ sig :=
  ⟨StableHlo.unary_bufs_sub .., StableHlo.unary_bufs_sub .., StableHlo.ternary_bufs_sub ..⟩

theorem pre7_sub : (pre7 : List (HloOp τ sig (Elt F))).Forall fun op => op.bufs ⊆ StableHlo.tcRefs τ sig :=
  ⟨StableHlo.nullary_bufs_sub .., StableHlo.unary_bufs_sub .., StableHlo.binary_bufs_sub ..⟩

theorem pre8_sub : (pre8 : List (HloOp τ sig (Elt F))).Forall fun op => op.bufs ⊆ StableHlo.tcRefs τ sig :=
  ⟨StableHlo.binary_bufs_sub .., StableHlo.nullary_bufs_sub ..⟩

theorem pre9_sub : (pre9 : List (HloOp τ sig (Elt F))).Forall fun op => op.bufs ⊆ StableHlo.tcRefs τ sig :=
  ⟨StableHlo.unary_bufs_sub .., StableHlo.unary_bufs_sub .., StableHlo.ternary_bufs_sub ..⟩

theorem pre10_sub : (pre10 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.unary_bufs_sub .., StableHlo.binary_bufs_sub .., StableHlo.ternary_bufs_sub ..,
    StableHlo.nullary_bufs_sub .., StableHlo.unary_bufs_sub .., StableHlo.binary_bufs_sub .., StableHlo.binary_bufs_sub .., StableHlo.unary_bufs_sub ..,
    StableHlo.nullary_bufs_sub .., StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub ..,
    StableHlo.ternary_bufs_sub .., StableHlo.binary_bufs_sub .., StableHlo.nullary_bufs_sub ..⟩

theorem pre11_sub : (pre11 : List (HloOp τ sig (Elt F))).Forall fun op => op.bufs ⊆ StableHlo.tcRefs τ sig :=
  ⟨StableHlo.unary_bufs_sub .., StableHlo.unary_bufs_sub .., StableHlo.ternary_bufs_sub ..⟩

theorem pre12_sub : (pre12 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub ..,
    StableHlo.ternary_bufs_sub .., StableHlo.unary_bufs_sub .., StableHlo.unary_bufs_sub .., StableHlo.unary_bufs_sub .., StableHlo.binary_bufs_sub ..,
    StableHlo.nullary_bufs_sub .., StableHlo.unary_bufs_sub .., StableHlo.binary_bufs_sub .., StableHlo.binary_bufs_sub .., StableHlo.unary_bufs_sub ..,
    StableHlo.unary_bufs_sub .., StableHlo.binary_bufs_sub ..⟩

theorem tailOps_sub : (tailOps : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub ..,
    StableHlo.binary_bufs_sub .., StableHlo.nullary_bufs_sub .., StableHlo.unary_bufs_sub .., StableHlo.binary_bufs_sub .., StableHlo.unary_bufs_sub ..,
    StableHlo.nullary_bufs_sub .., StableHlo.binary_bufs_sub .., StableHlo.unary_bufs_sub .., StableHlo.unary_bufs_sub .., StableHlo.unary_bufs_sub ..,
    StableHlo.binary_bufs_sub .., StableHlo.unary_bufs_sub .., StableHlo.binary_bufs_sub .., StableHlo.unary_bufs_sub .., StableHlo.unary_bufs_sub ..,
    StableHlo.unary_bufs_sub .., StableHlo.binary_bufs_sub .., StableHlo.binary_bufs_sub .., StableHlo.nullary_bufs_sub .., StableHlo.unary_bufs_sub ..,
    StableHlo.binary_bufs_sub ..⟩

end Line

/-- Every operation touches TensorCore buffers only. -/
theorem ops_sub : (ops : List (HloOp τ sig (Elt F))).Forall fun op => op.bufs ⊆ StableHlo.tcRefs τ sig :=
  List.forall_iff_forall_mem.mpr (Line.forall_ops
    Line.pre0_sub Line.pre1_sub Line.pre2_sub Line.pre3_sub Line.pre4_sub Line.pre5_sub Line.pre6_sub
    Line.pre7_sub Line.pre8_sub Line.pre9_sub Line.pre10_sub Line.pre11_sub Line.pre12_sub Line.tailOps_sub)

namespace Line

/-! ## Each operation determines its results

None of the builders leaves a result to be chosen (no buffer is merely allocated): each piece's operations have an
empty set of fresh results, by computation on the literal list. -/

theorem pre0_fresh : (pre0 : List (HloOp τ sig (Elt F))).Forall fun op => op.fresh = ∅ := by
  simp only [List.Forall]; repeat' constructor

theorem pre1_fresh : (pre1 : List (HloOp τ sig (Elt F))).Forall fun op => op.fresh = ∅ := by
  simp only [List.Forall]; repeat' constructor

theorem pre2_fresh : (pre2 : List (HloOp τ sig (Elt F))).Forall fun op => op.fresh = ∅ := by
  simp only [List.Forall]; repeat' constructor

theorem pre3_fresh : (pre3 : List (HloOp τ sig (Elt F))).Forall fun op => op.fresh = ∅ := by
  simp only [List.Forall]; repeat' constructor

theorem pre4_fresh : (pre4 : List (HloOp τ sig (Elt F))).Forall fun op => op.fresh = ∅ := by
  simp only [List.Forall]; repeat' constructor

theorem pre5_fresh : (pre5 : List (HloOp τ sig (Elt F))).Forall fun op => op.fresh = ∅ := by
  simp only [List.Forall]; repeat' constructor

theorem pre6_fresh : (pre6 : List (HloOp τ sig (Elt F))).Forall fun op => op.fresh = ∅ := by
  simp only [List.Forall]; repeat' constructor

theorem pre7_fresh : (pre7 : List (HloOp τ sig (Elt F))).Forall fun op => op.fresh = ∅ := by
  simp only [List.Forall]; repeat' constructor

theorem pre8_fresh : (pre8 : List (HloOp τ sig (Elt F))).Forall fun op => op.fresh = ∅ := by
  simp only [List.Forall]; repeat' constructor

theorem pre9_fresh : (pre9 : List (HloOp τ sig (Elt F))).Forall fun op => op.fresh = ∅ := by
  simp only [List.Forall]; repeat' constructor

theorem pre10_fresh : (pre10 : List (HloOp τ sig (Elt F))).Forall fun op => op.fresh = ∅ := by
  simp only [List.Forall]; repeat' constructor

theorem pre11_fresh : (pre11 : List (HloOp τ sig (Elt F))).Forall fun op => op.fresh = ∅ := by
  simp only [List.Forall]; repeat' constructor

theorem pre12_fresh : (pre12 : List (HloOp τ sig (Elt F))).Forall fun op => op.fresh = ∅ := by
  simp only [List.Forall]; repeat' constructor

theorem tailOps_fresh : (tailOps : List (HloOp τ sig (Elt F))).Forall fun op => op.fresh = ∅ := by
  simp only [List.Forall]; repeat' constructor

/-! ## The run -/

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

end Line

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq Line.scopedRefs_eq Line.scopedSems_eq defs main (fun _ => ops) main_eq (fun _ => ops_sub) m ρ
    (fun _ => Line.forall_ops
      Line.pre0_fresh Line.pre1_fresh Line.pre2_fresh Line.pre3_fresh Line.pre4_fresh Line.pre5_fresh Line.pre6_fresh
      Line.pre7_fresh Line.pre8_fresh Line.pre9_fresh Line.pre10_fresh Line.pre11_fresh Line.pre12_fresh Line.tailOps_fresh)

namespace Line

/-! ## The argument array is written by no operation

Each operation writes its result buffer only, and every result buffer is a reference other than the argument's
(distinct references are distinct device buffers): per piece, one inequality of references per operation. -/

theorem pre0_keeps : (pre0 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre1_keeps : (pre1 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre2_keeps : (pre2 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre3_keeps : (pre3 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre4_keeps : (pre4 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre5_keeps : (pre5 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre6_keeps : (pre6 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre7_keeps : (pre7 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre8_keeps : (pre8 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre9_keeps : (pre9 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre10_keeps : (pre10 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre11_keeps : (pre11 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem pre12_keeps : (pre12 : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

theorem tailOps_keeps : (tailOps : List (HloOp τ sig (Elt F))).Forall fun op => Proc.devRef (τ := τ) .tc main_arg0 ∉ op.writes := by
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

end Line

/-- No operation writes the argument array. -/
theorem arg0_kept (V : Valuation τ sig (Elt F)) :
    StableHlo.after ops V (Proc.devRef .tc main_arg0) = V (Proc.devRef .tc main_arg0) :=
  StableHlo.after_of_forall_not_mem (b := Proc.devRef .tc main_arg0) ops V
    (Line.forall_ops
      Line.pre0_keeps Line.pre1_keeps Line.pre2_keeps Line.pre3_keeps Line.pre4_keeps Line.pre5_keeps Line.pre6_keeps
      Line.pre7_keeps Line.pre8_keeps Line.pre9_keeps Line.pre10_keeps Line.pre11_keeps Line.pre12_keeps Line.tailOps_keeps)

end Cert.ReferenceIdeal.RR

end
-- ==== Proof.RefTail.lean ====
/-
  The reference's last stretch read back: from any contents of the voxel buffer, the counts, the voxel
  coordinates and the voxel centres, its four results are the specification's functions of them.

  The decorated buffer is a concatenation along the coordinate axis of the voxel buffer itself and of the
  masked offsets; each is read at one index (voxel `i`, slot `j`, coordinate `k`). Every broadcast in the
  stretch only repeats a value along a unit axis, so at an index it reads its operand at the same coordinates
  with 0 on the unit axes: the slot sum at `(i, k)`, the count at `i`, the mask at `(i, j)`.
-/
import proofs.«180918_j40785009443381_1_alg».proof.Proof.RefOps
import proofs.«180918_j40785009443381_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.ReferenceIdeal.RR

open Cert.ReferenceIdeal Cert.ReferenceIdeal.Gen Idealize.ShloMosaic Idealize.ShloMosaic.TcCoe Idealize.SL.Sem
open Idealize.ShloMosaic.ValueIdx Idealize.ShloMosaic.StableHlo

/-! ## The operations read at one index, over any voxel buffer `x` and any counts `cnt` -/

/-- An integer comparison of two arrays at an index compares the two elements. -/
theorem cmpi_at {s : Shape} {w : Nat} (p : CmpIPredicate) (a b : IVec s w) (i : s.Idx) :
    cmpi p a b i = IntOp.cmpi p (a i) (b i) := rfl

/-- The occupancy mask at voxel `i`, slot `j`: the slot numbers `0 … 31` are laid along axis 1 and the counts along
    axis 0, so the comparison at `(i, j)` is of the word `j` with voxel `i`'s count. -/
theorem mask_at (cnt : IVec S500000 32) (i : Fin 500000) (j : Fin 32) :
    cmpi CmpIPredicate.slt
      (broadcastInDim S500000x32 ![0, 1] bcast_S1x32_S500000x32_0_1
        (broadcastInDim S1x32 ![1] bcast_S32_S1x32_1 (iotaInDim S32 32 0)))
      (broadcastInDim S500000x32 ![0, 1] bcast_S500000x1_S500000x32_0_1
        (broadcastInDim S500000x1 ![0] bcast_S500000_S500000x1_0 cnt)) (ix2 i j)
      = Cert.Voxel.occ cnt i j := by
  rw [cmpi_at]
  rw [broadcastInDim_apply ![0, 1] bcast_S1x32_S500000x32_0_1 _ (ix2 i j) (ix2 (0 : Fin 1) j)
        (fun a => match a with | ⟨0, _⟩ => rfl | ⟨1, _⟩ => rfl),
      broadcastInDim_apply ![1] bcast_S32_S1x32_1 _ (ix2 (0 : Fin 1) j) (ix1 j)
        (fun a => match a with | ⟨0, _⟩ => rfl),
      broadcastInDim_apply ![0, 1] bcast_S500000x1_S500000x32_0_1 _ (ix2 i j) (ix2 i (0 : Fin 1))
        (fun a => match a with | ⟨0, _⟩ => rfl | ⟨1, _⟩ => rfl),
      broadcastInDim_apply ![0] bcast_S500000_S500000x1_0 _ (ix2 i (0 : Fin 1)) (ix1 i)
        (fun a => match a with | ⟨0, _⟩ => rfl)]
  rfl

/-- The count of voxel `i` as a float, never below one: the maximum with the splat of the word 1, converted. -/
theorem cntF_at (cnt : IVec S500000 32) (i : Fin 500000) :
    (sitofp FTy.f32 (maxsi cnt (broadcastInDim S500000 ![] bcast_S_S500000 (constantI S_ 32 1#32)))
      : FVec Ideal S500000 .f32) (ix1 i) = Cert.Voxel.cntF cnt i := rfl

/-- The sum over the slot axis at voxel `i`, coordinate `k`: the zero initial value plus the sum over the 32 slots. -/
theorem sum_at (x : FVec Ideal S500000x32x3 .f32) (i : Fin 500000) (k : Fin 3) :
    Host.reduceAdd x (constant S_ FTy.f32 0#32) reducesTo_S500000x32x3_S500000x3_d1 h_S_ (ix2 i k)
      = ∑ p : Fin 32, x (ix3 i p k) := by
  have hR : S500000x32x3.Reduces [1] S500000x3 := by decide
  rw [hostReduceAdd_apply, Ideal.hostReduceAdd_single reducesTo_S500000x32x3_S500000x3_d1 hR]
  rw [constant_apply, Ideal.ofBits_zero_f32, zero_add]
  refine Finset.sum_congr rfl fun p _ => congrArg x (funext fun c => Fin.ext ?_)
  match c with
  | ⟨0, _⟩ => rfl
  | ⟨1, _⟩ => rfl
  | ⟨2, _⟩ => rfl

/-- The host's quotient of two arrays at an index is the exact quotient of the two elements. -/
theorem divf_at {s : Shape} {φ : FTy} (a b : FVec Ideal s φ) (i : s.Idx) :
    Host.divf a b i = Ideal.div (a i) (b i) := rfl

/-- A one-bit array read unsigned as floats, at an index, converts the element. -/
theorem uitofp_at {s : Shape} {w : Nat} {φ : FTy} (a : IVec s w) (i : s.Idx) :
    (uitofp φ a : FVec Ideal s φ) i = FloatOps.uitofp (F := Ideal) φ (a i) := rfl

/-- Coordinate `k` of voxel `i`'s centroid: the slot sum at `(i, k)` over the count at `i`, both repeated along the
    unit slot axis of the quotient's shape. -/
theorem centroid_at (x : FVec Ideal S500000x32x3 .f32) (cnt : IVec S500000 32) (i : Fin 500000) (k : Fin 3) :
    Host.divf
      (broadcastInDim S500000x1x3 ![0, 2] bcast_S500000x3_S500000x1x3_0_2
        (Host.reduceAdd x (constant S_ FTy.f32 0#32) reducesTo_S500000x32x3_S500000x3_d1 h_S_))
      (broadcastInDim S500000x1x3 ![0, 1, 2] bcast_S500000x1x1_S500000x1x3_0_1_2
        (broadcastInDim S500000x1x1 ![0] bcast_S500000_S500000x1x1_0
          (sitofp FTy.f32 (maxsi cnt (broadcastInDim S500000 ![] bcast_S_S500000 (constantI S_ 32 1#32))))))
      (ix3 i (0 : Fin 1) k) = Cert.Voxel.centroid x cnt i k := by
  rw [divf_at,
    broadcastInDim_apply ![0, 2] bcast_S500000x3_S500000x1x3_0_2 _ (ix3 i (0 : Fin 1) k) (ix2 i k)
      (fun a => match a with | ⟨0, _⟩ => rfl | ⟨1, _⟩ => rfl),
    broadcastInDim_apply ![0, 1, 2] bcast_S500000x1x1_S500000x1x3_0_1_2 _ (ix3 i (0 : Fin 1) k)
      (ix3 i (0 : Fin 1) (0 : Fin 1)) (fun a => match a with | ⟨0, _⟩ => rfl | ⟨1, _⟩ => rfl | ⟨2, _⟩ => rfl),
    broadcastInDim_apply ![0] bcast_S500000_S500000x1x1_0 _ (ix3 i (0 : Fin 1) (0 : Fin 1)) (ix1 i)
      (fun a => match a with | ⟨0, _⟩ => rfl),
    sum_at, cntF_at]
  rfl

/-- The masked offset at `(i, j, k)`: the point's coordinate less the centroid's (repeated along the slot axis),
    times the occupancy of slot `j` (repeated along the coordinate axis) read as a float. -/
theorem offset_at (x : FVec Ideal S500000x32x3 .f32) (cnt : IVec S500000 32) (i : Fin 500000) (j : Fin 32)
    (k : Fin 3) :
    mulf
      (subf x
        (broadcastInDim S500000x32x3 ![0, 1, 2] bcast_S500000x1x3_S500000x32x3_0_1_2
          (Host.divf
            (broadcastInDim S500000x1x3 ![0, 2] bcast_S500000x3_S500000x1x3_0_2
              (Host.reduceAdd x (constant S_ FTy.f32 0#32) reducesTo_S500000x32x3_S500000x3_d1 h_S_))
            (broadcastInDim S500000x1x3 ![0, 1, 2] bcast_S500000x1x1_S500000x1x3_0_1_2
              (broadcastInDim S500000x1x1 ![0] bcast_S500000_S500000x1x1_0
                (sitofp FTy.f32 (maxsi cnt (broadcastInDim S500000 ![] bcast_S_S500000 (constantI S_ 32 1#32)))))))))
      (broadcastInDim S500000x32x3 ![0, 1, 2] bcast_S500000x32x1_S500000x32x3_0_1_2
        (uitofp FTy.f32
          (broadcastInDim S500000x32x1 ![0, 1] bcast_S500000x32_S500000x32x1_0_1
            (cmpi CmpIPredicate.slt
              (broadcastInDim S500000x32 ![0, 1] bcast_S1x32_S500000x32_0_1
                (broadcastInDim S1x32 ![1] bcast_S32_S1x32_1 (iotaInDim S32 32 0)))
              (broadcastInDim S500000x32 ![0, 1] bcast_S500000x1_S500000x32_0_1
                (broadcastInDim S500000x1 ![0] bcast_S500000_S500000x1_0 cnt))))))
      (ix3 i j k) = Cert.Voxel.offset x cnt i j k := by
  rw [mulf_apply, subf_apply,
    broadcastInDim_apply ![0, 1, 2] bcast_S500000x1x3_S500000x32x3_0_1_2 _ (ix3 i j k) (ix3 i (0 : Fin 1) k)
      (fun a => match a with | ⟨0, _⟩ => rfl | ⟨1, _⟩ => rfl | ⟨2, _⟩ => rfl),
    centroid_at,
    broadcastInDim_apply ![0, 1, 2] bcast_S500000x32x1_S500000x32x3_0_1_2 _ (ix3 i j k) (ix3 i j (0 : Fin 1))
      (fun a => match a with | ⟨0, _⟩ => rfl | ⟨1, _⟩ => rfl | ⟨2, _⟩ => rfl),
    uitofp_at,
    broadcastInDim_apply ![0, 1] bcast_S500000x32_S500000x32x1_0_1 _ (ix3 i j (0 : Fin 1)) (ix2 i j)
      (fun a => match a with | ⟨0, _⟩ => rfl | ⟨1, _⟩ => rfl),
    mask_at]
  rfl

/-- The specification's decorated buffer at a coordinate below 3 is the point itself … -/
theorem voxOut_point (x : FVec Ideal S500000x32x3 .f32) (cnt : IVec S500000 32) (i : Fin 500000) (j : Fin 32)
    (k : Fin 6) (h : k.val < 3) :
    Cert.Voxel.voxOut x cnt (ix3 i j k) = x (ix3 i j ⟨k.val, h⟩) := by
  unfold Cert.Voxel.voxOut
  exact dif_pos h

/-- … and from 3 on the masked offset at the coordinate 3 less. -/
theorem voxOut_offset (x : FVec Ideal S500000x32x3 .f32) (cnt : IVec S500000 32) (i : Fin 500000) (j : Fin 32)
    (k : Fin 6) (h : ¬ k.val < 3) :
    Cert.Voxel.voxOut x cnt (ix3 i j k)
      = Cert.Voxel.offset x cnt i j ⟨k.val - 3, by have h6 : k.val < 6 := k.isLt; omega⟩ := by
  unfold Cert.Voxel.voxOut
  exact dif_neg h

/-! ## The four results -/

variable (W : Valuation τ sig (Elt Ideal))

/-- The decorated buffer: the concatenation is read piece by piece. Coordinates 0–2 fall in the first piece, the
    voxel buffer, at the same index; coordinates 3–5 fall in the second, the masked offsets, at the coordinate 3 less
    (the first piece's extent along the axis is 3). -/
theorem tail_vox : StableHlo.after tailOps W (Proc.devRef .tc main_v136)
    = Cert.Voxel.voxOut (W (Proc.devRef .tc main_v83)) (W (Proc.devRef .tc main_v95)) := by
  after_results_simp
  funext o
  obtain ⟨i, j, k, rfl⟩ : ∃ i j k, o = ix3 (n0 := 500000) (n1 := 32) (n2 := 6) i j k :=
    ⟨o 0, o 1, o 2, eq_ix3 o⟩
  have h6 : k.val < 6 := k.isLt
  by_cases h : k.val < 3
  · rw [concatenate_pair_apply_left (t := S500000x32x6) (s₁ := S500000x32x3) (s₂ := S500000x32x3) _ _ _
          concatenates_S500000x32x3_S500000x32x3_S500000x32x6_d2 (ix3 i j k) (rfl : (3 : Nat) = 3)
          (ix3 (n0 := 500000) (n1 := 32) (n2 := 3) i j ⟨k.val, h⟩)
          (fun b => match b with | ⟨0, _⟩ => rfl | ⟨1, _⟩ => rfl | ⟨2, _⟩ => rfl)]
    after_results_simp
    generalize W (Proc.devRef .tc main_v83) = x
    generalize W (Proc.devRef .tc main_v95) = cnt
    exact (voxOut_point x cnt i j k h).symm
  · rw [concatenate_pair_apply_right (t := S500000x32x6) (s₁ := S500000x32x3) (s₂ := S500000x32x3) _ _ _
          concatenates_S500000x32x3_S500000x32x3_S500000x32x6_d2 (ix3 i j k) (rfl : (3 : Nat) = 3)
          (rfl : (3 : Nat) = 3) (ix3 (n0 := 500000) (n1 := 32) (n2 := 3) i j ⟨k.val - 3, by omega⟩)
          (fun b => match b with
            | ⟨0, _⟩ => fun _ => rfl
            | ⟨1, _⟩ => fun _ => rfl
            | ⟨2, _⟩ => fun hb => absurd rfl hb)
          (show k.val - 3 + 3 = k.val by omega)]
    after_results_simp
    generalize W (Proc.devRef .tc main_v83) = x
    generalize W (Proc.devRef .tc main_v95) = cnt
    rw [voxOut_offset x cnt i j k h]
    exact offset_at x cnt i j _

/-- The padded coordinates: the same padding of the same array by the same zero word. -/
theorem tail_pad : StableHlo.after tailOps W (Proc.devRef .tc main_v137)
    = Cert.Voxel.padOut (W (Proc.devRef .tc main_v105)) := by
  after_results
  generalize W (Proc.devRef .tc main_v105) = u
  rfl

/-- The occupancy mask, index by index. -/
theorem tail_mask : StableHlo.after tailOps W (Proc.devRef .tc main_v121)
    = Cert.Voxel.maskOut (W (Proc.devRef .tc main_v95)) := by
  after_results
  generalize W (Proc.devRef .tc main_v95) = cnt
  funext o
  obtain ⟨i, j, rfl⟩ : ∃ i j, o = ix2 i j := ⟨o 0, o 1, eq_ix2 o⟩
  exact mask_at cnt i j

/-- No operation of the stretch writes the voxel centres. -/
theorem tail_center : StableHlo.after tailOps W (Proc.devRef .tc main_v115) = W (Proc.devRef .tc main_v115) := by
  after_results

end Cert.ReferenceIdeal.RR

end
-- ==== Proof.Prefix.lean ====
/-
  The two programs build the voxel buffer, the counts, the voxel coordinates and the voxel centres from
  the point cloud by the same host operations: from launch contents agreeing on the point cloud the four
  arrays agree.
-/
import proofs.«180918_j40785009443381_1_alg».proof.Proof.Gen.KernelIdeal.Launch
import proofs.«180918_j40785009443381_1_alg».proof.Proof.RefOps
import proofs.«180918_j40785009443381_1_alg».proof.Proof.LibAfter
import Idealize.ShloMosaic.PureOps.Ideal

set_option maxRecDepth 16384

noncomputable section

namespace Cert.Bridge

open Idealize.ShloMosaic Idealize.ShloMosaic.TcCoe Idealize.SL.Sem Idealize.ShloMosaic.StableHlo

/-- The concatenation of two pieces along an axis, with the pieces as arguments of their own. -/
def prefixCat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem prefix_concatenate_pair {α : Type} (t : Shape) (a : Fin t.rank) (s₁ s₂ : Shape) (x : s₁.Idx → α)
    (y : s₂.Idx → α)
    (h : Shape.Concatenates [s₁, s₂] t a) :
    concatenate t a [⟨s₁, x⟩, ⟨s₂, y⟩] h = prefixCat2 t a s₁ s₂ x y h := rfl

/-- The fold at a buffer as the composed term over the starting contents: each operation's result at its own
    buffer is its function's value, at any other buffer what was there; a two-piece concatenation is entered
    through `prefixCat2`. -/
macro "prefix_fold_results" : tactic =>
  `(tactic| (simp (disch := decide) only [after_cons, after_nil,
      nullary_result', unary_result', binary_result', ternary_result', quaternary_result', reshape_result',
      nary4_result', nary_result',
      unaryIndexed_result', binaryIndexed_result',
      nullary_result_ne', unary_result_ne', binary_result_ne', ternary_result_ne', quaternary_result_ne',
      reshape_result_ne',
      nary_result_ne', unaryIndexed_result_ne', binaryIndexed_result_ne', prefix_concatenate_pair]))

attribute [local irreducible] Host.sort2 Host.gather Host.scatter Host.reduceWindow Host.reduce pad in
set_option maxHeartbeats 800000 in
/-- The first three stretches (the integer voxel coordinate of each point, its linear voxel id with the
    out-of-range sentinel, the argsort of the ids): from contents agreeing on the point cloud the two sides agree
    on the point cloud (not written), the integer coordinates, the linear ids, the sort order, and the two
    three-entry constant tables (the grid's lower corner and the voxel size), which the two programs hold under
    each other's names. -/
theorem prefix_stageA (W : Valuation KernelIdeal.τ KernelIdeal.sig (Elt Ideal))
    (W' : Valuation ReferenceIdeal.τ ReferenceIdeal.sig (Elt Ideal))
    (h_arg0 : W' (Proc.devRef .tc ReferenceIdeal.main_arg0) = W (Proc.devRef .tc KernelIdeal.main_arg0)) :
    (after ReferenceIdeal.RR.pre2 (after ReferenceIdeal.RR.pre1
          (after ReferenceIdeal.RR.pre0 W'))) (Proc.devRef .tc ReferenceIdeal.main_arg0)
        = (after KernelIdeal.Gen.hostOps0_2 (after KernelIdeal.Gen.hostOps0_1
            (after KernelIdeal.Gen.hostOps0 W))) (Proc.devRef .tc KernelIdeal.main_arg0)
    ∧ (after ReferenceIdeal.RR.pre2 (after ReferenceIdeal.RR.pre1
          (after ReferenceIdeal.RR.pre0 W'))) (Proc.devRef .tc ReferenceIdeal.main_v7)
        = (after KernelIdeal.Gen.hostOps0_2 (after KernelIdeal.Gen.hostOps0_1
            (after KernelIdeal.Gen.hostOps0 W))) (Proc.devRef .tc KernelIdeal.main_v7)
    ∧ (after ReferenceIdeal.RR.pre2 (after ReferenceIdeal.RR.pre1
          (after ReferenceIdeal.RR.pre0 W'))) (Proc.devRef .tc ReferenceIdeal.main_v30)
        = (after KernelIdeal.Gen.hostOps0_2 (after KernelIdeal.Gen.hostOps0_1
            (after KernelIdeal.Gen.hostOps0 W))) (Proc.devRef .tc KernelIdeal.main_v30)
    ∧ (after ReferenceIdeal.RR.pre2 (after ReferenceIdeal.RR.pre1
          (after ReferenceIdeal.RR.pre0 W'))) (Proc.devRef .tc ReferenceIdeal.main_v31)
        = (after KernelIdeal.Gen.hostOps0_2 (after KernelIdeal.Gen.hostOps0_1
            (after KernelIdeal.Gen.hostOps0 W))) (Proc.devRef .tc KernelIdeal.main_v31)
    ∧ (after ReferenceIdeal.RR.pre2 (after ReferenceIdeal.RR.pre1
          (after ReferenceIdeal.RR.pre0 W'))) (Proc.devRef .tc ReferenceIdeal.main_cst)
        = (after KernelIdeal.Gen.hostOps0_2 (after KernelIdeal.Gen.hostOps0_1
            (after KernelIdeal.Gen.hostOps0 W))) (Proc.devRef .tc KernelIdeal.main_cst_0)
    ∧ (after ReferenceIdeal.RR.pre2 (after ReferenceIdeal.RR.pre1
          (after ReferenceIdeal.RR.pre0 W'))) (Proc.devRef .tc ReferenceIdeal.main_cst_0)
        = (after KernelIdeal.Gen.hostOps0_2 (after KernelIdeal.Gen.hostOps0_1
            (after KernelIdeal.Gen.hostOps0 W))) (Proc.devRef .tc KernelIdeal.main_cst) := by
  refine ⟨?_, ?_, ?_, ?_, ?_, ?_⟩
  · prefix_fold_results
    repeat (first | rw [h_arg0])
    all_goals rfl
  · prefix_fold_results
    repeat (first | rw [h_arg0])
    all_goals rfl
  · prefix_fold_results
    repeat (first | rw [h_arg0])
    all_goals rfl
  · prefix_fold_results
    repeat (first | rw [h_arg0])
    all_goals rfl
  · prefix_fold_results
    repeat (first | rw [h_arg0])
    all_goals rfl
  · prefix_fold_results
    repeat (first | rw [h_arg0])
    all_goals rfl

attribute [local irreducible] Host.sort2 Host.gather Host.scatter Host.reduceWindow Host.reduce pad in
set_option maxHeartbeats 800000 in
/-- Stretches 3 to 9 (the gathers along the sort order, the validity and new-voxel flags, the running sum and
    running maximum, the sentinel selects): from agreement on the point cloud, the integer coordinates, the
    linear ids and the sort order, the two sides agree on the sorted points, the sorted coordinates, the validity
    flag, the new-voxel flag, the dense voxel index, the rank within the voxel and the drop index; the two
    constant tables are not written. -/
theorem prefix_stageB (W : Valuation KernelIdeal.τ KernelIdeal.sig (Elt Ideal))
    (W' : Valuation ReferenceIdeal.τ ReferenceIdeal.sig (Elt Ideal))
    (h_arg0 : W' (Proc.devRef .tc ReferenceIdeal.main_arg0) = W (Proc.devRef .tc KernelIdeal.main_arg0))
    (h_v7 : W' (Proc.devRef .tc ReferenceIdeal.main_v7) = W (Proc.devRef .tc KernelIdeal.main_v7))
    (h_v30 : W' (Proc.devRef .tc ReferenceIdeal.main_v30) = W (Proc.devRef .tc KernelIdeal.main_v30))
    (h_v31 : W' (Proc.devRef .tc ReferenceIdeal.main_v31) = W (Proc.devRef .tc KernelIdeal.main_v31))
    (h_cst : W' (Proc.devRef .tc ReferenceIdeal.main_cst) = W (Proc.devRef .tc KernelIdeal.main_cst_0))
    (h_cst_0 : W' (Proc.devRef .tc ReferenceIdeal.main_cst_0) = W (Proc.devRef .tc KernelIdeal.main_cst)) :
    (after ReferenceIdeal.RR.pre9 (after ReferenceIdeal.RR.pre8 (after ReferenceIdeal.RR.pre7
          (after ReferenceIdeal.RR.pre6 (after ReferenceIdeal.RR.pre5 (after ReferenceIdeal.RR.pre4
          (after ReferenceIdeal.RR.pre3 W'))))))) (Proc.devRef .tc ReferenceIdeal.main_v45)
        = (after KernelIdeal.Gen.hostOps0_9 (after KernelIdeal.Gen.hostOps0_8 (after KernelIdeal.Gen.hostOps0_7
            (after KernelIdeal.Gen.hostOps0_6 (after KernelIdeal.Gen.hostOps0_5
            (after KernelIdeal.Gen.hostOps0_4
            (after KernelIdeal.Gen.hostOps0_3 W))))))) (Proc.devRef .tc KernelIdeal.main_v45)
    ∧ (after ReferenceIdeal.RR.pre9 (after ReferenceIdeal.RR.pre8 (after ReferenceIdeal.RR.pre7
          (after ReferenceIdeal.RR.pre6 (after ReferenceIdeal.RR.pre5 (after ReferenceIdeal.RR.pre4
          (after ReferenceIdeal.RR.pre3 W'))))))) (Proc.devRef .tc ReferenceIdeal.main_v52)
        = (after KernelIdeal.Gen.hostOps0_9 (after KernelIdeal.Gen.hostOps0_8 (after KernelIdeal.Gen.hostOps0_7
            (after KernelIdeal.Gen.hostOps0_6 (after KernelIdeal.Gen.hostOps0_5
            (after KernelIdeal.Gen.hostOps0_4
            (after KernelIdeal.Gen.hostOps0_3 W))))))) (Proc.devRef .tc KernelIdeal.main_v52)
    ∧ (after ReferenceIdeal.RR.pre9 (after ReferenceIdeal.RR.pre8 (after ReferenceIdeal.RR.pre7
          (after ReferenceIdeal.RR.pre6 (after ReferenceIdeal.RR.pre5 (after ReferenceIdeal.RR.pre4
          (after ReferenceIdeal.RR.pre3 W'))))))) (Proc.devRef .tc ReferenceIdeal.main_v54)
        = (after KernelIdeal.Gen.hostOps0_9 (after KernelIdeal.Gen.hostOps0_8 (after KernelIdeal.Gen.hostOps0_7
            (after KernelIdeal.Gen.hostOps0_6 (after KernelIdeal.Gen.hostOps0_5
            (after KernelIdeal.Gen.hostOps0_4
            (after KernelIdeal.Gen.hostOps0_3 W))))))) (Proc.devRef .tc KernelIdeal.main_v54)
    ∧ (after ReferenceIdeal.RR.pre9 (after ReferenceIdeal.RR.pre8 (after ReferenceIdeal.RR.pre7
          (after ReferenceIdeal.RR.pre6 (after ReferenceIdeal.RR.pre5 (after ReferenceIdeal.RR.pre4
          (after ReferenceIdeal.RR.pre3 W'))))))) (Proc.devRef .tc ReferenceIdeal.main_v59)
        = (after KernelIdeal.Gen.hostOps0_9 (after KernelIdeal.Gen.hostOps0_8 (after KernelIdeal.Gen.hostOps0_7
            (after KernelIdeal.Gen.hostOps0_6 (after KernelIdeal.Gen.hostOps0_5
            (after KernelIdeal.Gen.hostOps0_4
            (after KernelIdeal.Gen.hostOps0_3 W))))))) (Proc.devRef .tc KernelIdeal.main_v59)
    ∧ (after ReferenceIdeal.RR.pre9 (after ReferenceIdeal.RR.pre8 (after ReferenceIdeal.RR.pre7
          (after ReferenceIdeal.RR.pre6 (after ReferenceIdeal.RR.pre5 (after ReferenceIdeal.RR.pre4
          (after ReferenceIdeal.RR.pre3 W'))))))) (Proc.devRef .tc ReferenceIdeal.main_v63)
        = (after KernelIdeal.Gen.hostOps0_9 (after KernelIdeal.Gen.hostOps0_8 (after KernelIdeal.Gen.hostOps0_7
            (after KernelIdeal.Gen.hostOps0_6 (after KernelIdeal.Gen.hostOps0_5
            (after KernelIdeal.Gen.hostOps0_4
            (after KernelIdeal.Gen.hostOps0_3 W))))))) (Proc.devRef .tc KernelIdeal.main_v63)
    ∧ (after ReferenceIdeal.RR.pre9 (after ReferenceIdeal.RR.pre8 (after ReferenceIdeal.RR.pre7
          (after ReferenceIdeal.RR.pre6 (after ReferenceIdeal.RR.pre5 (after ReferenceIdeal.RR.pre4
          (after ReferenceIdeal.RR.pre3 W'))))))) (Proc.devRef .tc ReferenceIdeal.main_v67)
        = (after KernelIdeal.Gen.hostOps0_9 (after KernelIdeal.Gen.hostOps0_8 (after KernelIdeal.Gen.hostOps0_7
            (after KernelIdeal.Gen.hostOps0_6 (after KernelIdeal.Gen.hostOps0_5
            (after KernelIdeal.Gen.hostOps0_4
            (after KernelIdeal.Gen.hostOps0_3 W))))))) (Proc.devRef .tc KernelIdeal.main_v67)
    ∧ (after ReferenceIdeal.RR.pre9 (after ReferenceIdeal.RR.pre8 (after ReferenceIdeal.RR.pre7
          (after ReferenceIdeal.RR.pre6 (after ReferenceIdeal.RR.pre5 (after ReferenceIdeal.RR.pre4
          (after ReferenceIdeal.RR.pre3 W'))))))) (Proc.devRef .tc ReferenceIdeal.main_v68)
        = (after KernelIdeal.Gen.hostOps0_9 (after KernelIdeal.Gen.hostOps0_8 (after KernelIdeal.Gen.hostOps0_7
            (after KernelIdeal.Gen.hostOps0_6 (after KernelIdeal.Gen.hostOps0_5
            (after KernelIdeal.Gen.hostOps0_4
            (after KernelIdeal.Gen.hostOps0_3 W))))))) (Proc.devRef .tc KernelIdeal.main_v68)
    ∧ (after ReferenceIdeal.RR.pre9 (after ReferenceIdeal.RR.pre8 (after ReferenceIdeal.RR.pre7
          (after ReferenceIdeal.RR.pre6 (after ReferenceIdeal.RR.pre5 (after ReferenceIdeal.RR.pre4
          (after ReferenceIdeal.RR.pre3 W'))))))) (Proc.devRef .tc ReferenceIdeal.main_cst)
        = (after KernelIdeal.Gen.hostOps0_9 (after KernelIdeal.Gen.hostOps0_8 (after KernelIdeal.Gen.hostOps0_7
            (after KernelIdeal.Gen.hostOps0_6 (after KernelIdeal.Gen.hostOps0_5
            (after KernelIdeal.Gen.hostOps0_4
            (after KernelIdeal.Gen.hostOps0_3 W))))))) (Proc.devRef .tc KernelIdeal.main_cst_0)
    ∧ (after ReferenceIdeal.RR.pre9 (after ReferenceIdeal.RR.pre8 (after ReferenceIdeal.RR.pre7
          (after ReferenceIdeal.RR.pre6 (after ReferenceIdeal.RR.pre5 (after ReferenceIdeal.RR.pre4
          (after ReferenceIdeal.RR.pre3 W'))))))) (Proc.devRef .tc ReferenceIdeal.main_cst_0)
        = (after KernelIdeal.Gen.hostOps0_9 (after KernelIdeal.Gen.hostOps0_8 (after KernelIdeal.Gen.hostOps0_7
            (after KernelIdeal.Gen.hostOps0_6 (after KernelIdeal.Gen.hostOps0_5
            (after KernelIdeal.Gen.hostOps0_4
            (after KernelIdeal.Gen.hostOps0_3 W))))))) (Proc.devRef .tc KernelIdeal.main_cst) := by
  refine ⟨?_, ?_, ?_, ?_, ?_, ?_, ?_, ?_, ?_⟩
  · prefix_fold_results
    repeat (first | rw [h_arg0] | rw [h_v7] | rw [h_v30] | rw [h_v31] | rw [h_cst] | rw [h_cst_0])
    all_goals rfl
  · prefix_fold_results
    repeat (first | rw [h_arg0] | rw [h_v7] | rw [h_v30] | rw [h_v31] | rw [h_cst] | rw [h_cst_0])
    all_goals rfl
  · prefix_fold_results
    repeat (first | rw [h_arg0] | rw [h_v7] | rw [h_v30] | rw [h_v31] | rw [h_cst] | rw [h_cst_0])
    all_goals rfl
  · prefix_fold_results
    repeat (first | rw [h_arg0] | rw [h_v7] | rw [h_v30] | rw [h_v31] | rw [h_cst] | rw [h_cst_0])
    all_goals rfl
  · prefix_fold_results
    repeat (first | rw [h_arg0] | rw [h_v7] | rw [h_v30] | rw [h_v31] | rw [h_cst] | rw [h_cst_0])
    all_goals rfl
  · prefix_fold_results
    repeat (first | rw [h_arg0] | rw [h_v7] | rw [h_v30] | rw [h_v31] | rw [h_cst] | rw [h_cst_0])
    all_goals rfl
  · prefix_fold_results
    repeat (first | rw [h_arg0] | rw [h_v7] | rw [h_v30] | rw [h_v31] | rw [h_cst] | rw [h_cst_0])
    all_goals rfl
  · prefix_fold_results
    repeat (first | rw [h_arg0] | rw [h_v7] | rw [h_v30] | rw [h_v31] | rw [h_cst] | rw [h_cst_0])
    all_goals rfl
  · prefix_fold_results
    repeat (first | rw [h_arg0] | rw [h_v7] | rw [h_v30] | rw [h_v31] | rw [h_cst] | rw [h_cst_0])
    all_goals rfl

attribute [local irreducible] Host.sort2 Host.gather Host.scatter Host.reduceWindow Host.reduce pad in
set_option maxHeartbeats 800000 in
/-- Stretches 10 and 11: the voxel buffer (the sorted points scattered at (drop index, rank)), the counts (the
    in-range flags scatter-added at the drop index) and the row each voxel's first point writes (the dense index
    where the point is valid and opens a voxel, the sentinel elsewhere) agree; the sorted coordinates and the two
    constant tables are not written. -/
theorem prefix_stageC1 (W : Valuation KernelIdeal.τ KernelIdeal.sig (Elt Ideal))
    (W' : Valuation ReferenceIdeal.τ ReferenceIdeal.sig (Elt Ideal))
    (h_v45 : W' (Proc.devRef .tc ReferenceIdeal.main_v45) = W (Proc.devRef .tc KernelIdeal.main_v45))
    (h_v52 : W' (Proc.devRef .tc ReferenceIdeal.main_v52) = W (Proc.devRef .tc KernelIdeal.main_v52))
    (h_v54 : W' (Proc.devRef .tc ReferenceIdeal.main_v54) = W (Proc.devRef .tc KernelIdeal.main_v54))
    (h_v59 : W' (Proc.devRef .tc ReferenceIdeal.main_v59) = W (Proc.devRef .tc KernelIdeal.main_v59))
    (h_v63 : W' (Proc.devRef .tc ReferenceIdeal.main_v63) = W (Proc.devRef .tc KernelIdeal.main_v63))
    (h_v67 : W' (Proc.devRef .tc ReferenceIdeal.main_v67) = W (Proc.devRef .tc KernelIdeal.main_v67))
    (h_v68 : W' (Proc.devRef .tc ReferenceIdeal.main_v68) = W (Proc.devRef .tc KernelIdeal.main_v68))
    (h_cst : W' (Proc.devRef .tc ReferenceIdeal.main_cst) = W (Proc.devRef .tc KernelIdeal.main_cst_0))
    (h_cst_0 : W' (Proc.devRef .tc ReferenceIdeal.main_cst_0) = W (Proc.devRef .tc KernelIdeal.main_cst)) :
    (after ReferenceIdeal.RR.pre11 (after ReferenceIdeal.RR.pre10 W')) (Proc.devRef .tc ReferenceIdeal.main_v83)
        = (after KernelIdeal.Gen.hostOps0_11
            (after KernelIdeal.Gen.hostOps0_10 W)) (Proc.devRef .tc KernelIdeal.main_v83)
    ∧ (after ReferenceIdeal.RR.pre11 (after ReferenceIdeal.RR.pre10 W')) (Proc.devRef .tc ReferenceIdeal.main_v95)
        = (after KernelIdeal.Gen.hostOps0_11
            (after KernelIdeal.Gen.hostOps0_10 W)) (Proc.devRef .tc KernelIdeal.main_v95)
    ∧ (after ReferenceIdeal.RR.pre11 (after ReferenceIdeal.RR.pre10 W')) (Proc.devRef .tc ReferenceIdeal.main_v97)
        = (after KernelIdeal.Gen.hostOps0_11
            (after KernelIdeal.Gen.hostOps0_10 W)) (Proc.devRef .tc KernelIdeal.main_v97)
    ∧ (after ReferenceIdeal.RR.pre11 (after ReferenceIdeal.RR.pre10 W')) (Proc.devRef .tc ReferenceIdeal.main_v52)
        = (after KernelIdeal.Gen.hostOps0_11
            (after KernelIdeal.Gen.hostOps0_10 W)) (Proc.devRef .tc KernelIdeal.main_v52)
    ∧ (after ReferenceIdeal.RR.pre11 (after ReferenceIdeal.RR.pre10 W')) (Proc.devRef .tc ReferenceIdeal.main_cst)
        = (after KernelIdeal.Gen.hostOps0_11
            (after KernelIdeal.Gen.hostOps0_10 W)) (Proc.devRef .tc KernelIdeal.main_cst_0)
    ∧ (after ReferenceIdeal.RR.pre11 (after ReferenceIdeal.RR.pre10 W')) (Proc.devRef .tc ReferenceIdeal.main_cst_0)
        = (after KernelIdeal.Gen.hostOps0_11
            (after KernelIdeal.Gen.hostOps0_10 W)) (Proc.devRef .tc KernelIdeal.main_cst) := by
  refine ⟨?_, ?_, ?_, ?_, ?_, ?_⟩
  · prefix_fold_results
    repeat (first | rw [h_v45] | rw [h_v52] | rw [h_v54] | rw [h_v59] | rw [h_v63] | rw [h_v67] | rw [h_v68] | rw [h_cst] | rw [h_cst_0])
    all_goals rfl
  · prefix_fold_results
    repeat (first | rw [h_v45] | rw [h_v52] | rw [h_v54] | rw [h_v59] | rw [h_v63] | rw [h_v67] | rw [h_v68] | rw [h_cst] | rw [h_cst_0])
    all_goals rfl
  · prefix_fold_results
    repeat (first | rw [h_v45] | rw [h_v52] | rw [h_v54] | rw [h_v59] | rw [h_v63] | rw [h_v67] | rw [h_v68] | rw [h_cst] | rw [h_cst_0])
    all_goals rfl
  · prefix_fold_results
    repeat (first | rw [h_v45] | rw [h_v52] | rw [h_v54] | rw [h_v59] | rw [h_v63] | rw [h_v67] | rw [h_v68] | rw [h_cst] | rw [h_cst_0])
    all_goals rfl
  · prefix_fold_results
    repeat (first | rw [h_v45] | rw [h_v52] | rw [h_v54] | rw [h_v59] | rw [h_v63] | rw [h_v67] | rw [h_v68] | rw [h_cst] | rw [h_cst_0])
    all_goals rfl
  · prefix_fold_results
    repeat (first | rw [h_v45] | rw [h_v52] | rw [h_v54] | rw [h_v59] | rw [h_v63] | rw [h_v67] | rw [h_v68] | rw [h_cst] | rw [h_cst_0])
    all_goals rfl

attribute [local irreducible] Host.sort2 Host.gather Host.scatter Host.reduceWindow Host.reduce pad in
set_option maxHeartbeats 800000 in
/-- The last stretch: the voxel coordinates (the sorted coordinates scattered at the first points' rows) and
    the voxel centres (coordinate times voxel size, plus the lower corner, plus half a voxel) agree; the voxel
    buffer and the counts are not written (the kernel program's closing reshape of the counts writes a buffer of
    its own). -/
theorem prefix_stageC2 (W : Valuation KernelIdeal.τ KernelIdeal.sig (Elt Ideal))
    (W' : Valuation ReferenceIdeal.τ ReferenceIdeal.sig (Elt Ideal))
    (h_v83 : W' (Proc.devRef .tc ReferenceIdeal.main_v83) = W (Proc.devRef .tc KernelIdeal.main_v83))
    (h_v95 : W' (Proc.devRef .tc ReferenceIdeal.main_v95) = W (Proc.devRef .tc KernelIdeal.main_v95))
    (h_v97 : W' (Proc.devRef .tc ReferenceIdeal.main_v97) = W (Proc.devRef .tc KernelIdeal.main_v97))
    (h_v52 : W' (Proc.devRef .tc ReferenceIdeal.main_v52) = W (Proc.devRef .tc KernelIdeal.main_v52))
    (h_cst : W' (Proc.devRef .tc ReferenceIdeal.main_cst) = W (Proc.devRef .tc KernelIdeal.main_cst_0))
    (h_cst_0 : W' (Proc.devRef .tc ReferenceIdeal.main_cst_0) = W (Proc.devRef .tc KernelIdeal.main_cst)) :
    (after ReferenceIdeal.RR.pre12 W') (Proc.devRef .tc ReferenceIdeal.main_v83)
        = (after KernelIdeal.Gen.hostOps0_12 W) (Proc.devRef .tc KernelIdeal.main_v83)
    ∧ (after ReferenceIdeal.RR.pre12 W') (Proc.devRef .tc ReferenceIdeal.main_v95)
        = (after KernelIdeal.Gen.hostOps0_12 W) (Proc.devRef .tc KernelIdeal.main_v95)
    ∧ (after ReferenceIdeal.RR.pre12 W') (Proc.devRef .tc ReferenceIdeal.main_v105)
        = (after KernelIdeal.Gen.hostOps0_12 W) (Proc.devRef .tc KernelIdeal.main_v105)
    ∧ (after ReferenceIdeal.RR.pre12 W') (Proc.devRef .tc ReferenceIdeal.main_v115)
        = (after KernelIdeal.Gen.hostOps0_12 W) (Proc.devRef .tc KernelIdeal.main_v115) := by
  refine ⟨?_, ?_, ?_, ?_⟩
  · prefix_fold_results
    repeat (first | rw [h_v83] | rw [h_v95] | rw [h_v97] | rw [h_v52] | rw [h_cst] | rw [h_cst_0])
    all_goals rfl
  · prefix_fold_results
    repeat (first | rw [h_v83] | rw [h_v95] | rw [h_v97] | rw [h_v52] | rw [h_cst] | rw [h_cst_0])
    all_goals rfl
  · prefix_fold_results
    repeat (first | rw [h_v83] | rw [h_v95] | rw [h_v97] | rw [h_v52] | rw [h_cst] | rw [h_cst_0])
    all_goals rfl
  · prefix_fold_results
    repeat (first | rw [h_v83] | rw [h_v95] | rw [h_v97] | rw [h_v52] | rw [h_cst] | rw [h_cst_0])
    all_goals rfl

/-- The kernel program's host operations before its region. -/
abbrev kPrefix : List (HloOp Cert.KernelIdeal.τ Cert.KernelIdeal.sig (Elt Ideal)) :=
  List.flatten [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, Cert.KernelIdeal.Gen.hostOps0_8,
    Cert.KernelIdeal.Gen.hostOps0_9, Cert.KernelIdeal.Gen.hostOps0_10, Cert.KernelIdeal.Gen.hostOps0_11,
    Cert.KernelIdeal.Gen.hostOps0_12]

theorem prefix_eq (V : Valuation Cert.KernelIdeal.τ Cert.KernelIdeal.sig (Elt Ideal))
    (V' : Valuation Cert.ReferenceIdeal.τ Cert.ReferenceIdeal.sig (Elt Ideal))
    (h : V' (Proc.devRef .tc Cert.ReferenceIdeal.main_arg0) = V (Proc.devRef .tc Cert.KernelIdeal.main_arg0)) :
    after Cert.ReferenceIdeal.RR.prefixOps V' (Proc.devRef .tc Cert.ReferenceIdeal.main_v83)
        = after kPrefix V (Proc.devRef .tc Cert.KernelIdeal.main_v83)
    ∧ after Cert.ReferenceIdeal.RR.prefixOps V' (Proc.devRef .tc Cert.ReferenceIdeal.main_v95)
        = after kPrefix V (Proc.devRef .tc Cert.KernelIdeal.main_v95)
    ∧ after Cert.ReferenceIdeal.RR.prefixOps V' (Proc.devRef .tc Cert.ReferenceIdeal.main_v105)
        = after kPrefix V (Proc.devRef .tc Cert.KernelIdeal.main_v105)
    ∧ after Cert.ReferenceIdeal.RR.prefixOps V' (Proc.devRef .tc Cert.ReferenceIdeal.main_v115)
        = after kPrefix V (Proc.devRef .tc Cert.KernelIdeal.main_v115) := by
  -- the fold of the thirteen stretches laid end to end is the thirteen folds one after the other
  have hK : after kPrefix V
      = (after KernelIdeal.Gen.hostOps0_12 (after KernelIdeal.Gen.hostOps0_11 (after KernelIdeal.Gen.hostOps0_10
          (after KernelIdeal.Gen.hostOps0_9 (after KernelIdeal.Gen.hostOps0_8 (after KernelIdeal.Gen.hostOps0_7
          (after KernelIdeal.Gen.hostOps0_6 (after KernelIdeal.Gen.hostOps0_5 (after KernelIdeal.Gen.hostOps0_4
          (after KernelIdeal.Gen.hostOps0_3 (after KernelIdeal.Gen.hostOps0_2 (after KernelIdeal.Gen.hostOps0_1
          (after KernelIdeal.Gen.hostOps0 V))))))))))))) := by
    simp only [List.flatten_cons, List.flatten_nil, List.append_nil, after_append]
  have hR : after Cert.ReferenceIdeal.RR.prefixOps V'
      = (after ReferenceIdeal.RR.pre12 (after ReferenceIdeal.RR.pre11 (after ReferenceIdeal.RR.pre10
          (after ReferenceIdeal.RR.pre9 (after ReferenceIdeal.RR.pre8 (after ReferenceIdeal.RR.pre7
          (after ReferenceIdeal.RR.pre6 (after ReferenceIdeal.RR.pre5 (after ReferenceIdeal.RR.pre4
          (after ReferenceIdeal.RR.pre3 (after ReferenceIdeal.RR.pre2 (after ReferenceIdeal.RR.pre1
          (after ReferenceIdeal.RR.pre0 V'))))))))))))) := by
    simp only [List.flatten_cons, List.flatten_nil, List.append_nil, after_append]
  rw [hK, hR]
  -- agreement is carried from cut to cut: each stage reads only what the stage before it handed on
  obtain ⟨a_arg0, a_v7, a_v30, a_v31, a_cst, a_cst_0⟩ := prefix_stageA V V' h
  obtain ⟨b_v45, b_v52, b_v54, b_v59, b_v63, b_v67, b_v68, b_cst, b_cst_0⟩ :=
    prefix_stageB _ _ a_arg0 a_v7 a_v30 a_v31 a_cst a_cst_0
  obtain ⟨c_v83, c_v95, c_v97, c_v52, c_cst, c_cst_0⟩ :=
    prefix_stageC1 _ _ b_v45 b_v52 b_v54 b_v59 b_v63 b_v67 b_v68 b_cst b_cst_0
  exact prefix_stageC2 _ _ c_v83 c_v95 c_v97 c_v52 c_cst c_cst_0

end Cert.Bridge

end
-- ==== Proof.lean ====
/-
  Voxelization with per-voxel centroid offsets: the Pallas kernel program against its jnp reference.

  Both programs build, by the same host operations, a voxel buffer (500000 voxels × 32 slots × 3
  coordinates), a count per voxel, the voxels' integer coordinates and their centres from the point cloud.
  The kernel program then decorates the voxel buffer in a pallas_call over blocks of 10000 voxels; the
  reference does it with whole-array operations. Both decorations are the same function of the voxel buffer
  and the counts (Spec.lean): each slot's point, and its offset from the voxel's centroid (the slot sum over
  max(count, 1)) times the slot's occupancy; sums of extended reals do not depend on their order, so no
  finiteness is needed. The occupancy mask, the padded coordinates and the centres are shared.
-/
import proofs.«180918_j40785009443381_1_alg».proof.Defs
import proofs.«180918_j40785009443381_1_alg».proof.Proof.Gen.Kernel
import proofs.«180918_j40785009443381_1_alg».proof.Proof.Gen.Kernel.Skeleton
import proofs.«180918_j40785009443381_1_alg».proof.Proof.Gen.Kernel.Launch
import proofs.«180918_j40785009443381_1_alg».proof.Proof.Gen.Kernel.Points
import proofs.«180918_j40785009443381_1_alg».proof.Proof.Gen.Kernel.Frame
import proofs.«180918_j40785009443381_1_alg».proof.Proof.Gen.KernelIdeal
import proofs.«180918_j40785009443381_1_alg».proof.Proof.Gen.KernelIdeal.Skeleton
import proofs.«180918_j40785009443381_1_alg».proof.Proof.Gen.KernelIdeal.Launch
import proofs.«180918_j40785009443381_1_alg».proof.Proof.Gen.KernelIdeal.Points
import proofs.«180918_j40785009443381_1_alg».proof.Proof.Gen.KernelIdeal.Frame
import proofs.«180918_j40785009443381_1_alg».proof.Proof.Gen.ReferenceIdeal
import proofs.«180918_j40785009443381_1_alg».proof.Proof.Gen.Pre_finite_inputs
import proofs.«180918_j40785009443381_1_alg».proof.Proof.KRun
import proofs.«180918_j40785009443381_1_alg».proof.Proof.RefRun
import proofs.«180918_j40785009443381_1_alg».proof.Proof.RefTail
import proofs.«180918_j40785009443381_1_alg».proof.Proof.Prefix
import Idealize.ShloMosaic.Adequacy
import Idealize.ShloMosaic.Init

noncomputable section

namespace Cert.Proof

open Idealize.ShloMosaic Idealize.SL.Sem Idealize.ShloMosaic.StableHlo

/-- The reference's four results from launch contents `m'`, given the kernel program's launch contents `m`
    with the same point cloud: the specification's functions of the arrays the kernel's region finds. -/
theorem reference_results
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after Cert.ReferenceIdeal.RR.ops (launchContents m' c) (Proc.devRef .tc Cert.ReferenceIdeal.main_v136)
        = Cert.Voxel.voxOut (Cert.KernelIdeal.KV.vox m c) (Cert.KernelIdeal.KV.cnt m c)
    ∧ after Cert.ReferenceIdeal.RR.ops (launchContents m' c) (Proc.devRef .tc Cert.ReferenceIdeal.main_v137)
        = Cert.Voxel.padOut (Cert.KernelIdeal.KV.ucoord m c)
    ∧ after Cert.ReferenceIdeal.RR.ops (launchContents m' c) (Proc.devRef .tc Cert.ReferenceIdeal.main_v121)
        = Cert.Voxel.maskOut (Cert.KernelIdeal.KV.cnt m c)
    ∧ after Cert.ReferenceIdeal.RR.ops (launchContents m' c) (Proc.devRef .tc Cert.ReferenceIdeal.main_v115)
        = Cert.KernelIdeal.Gen.V m c Cert.KernelIdeal.main_v115 := by
  obtain ⟨e83, e95, e105, e115⟩ := Cert.Bridge.prefix_eq (launchContents m c) (launchContents m' c) hagree
  refine ⟨?_, ?_, ?_, ?_⟩
  · rw [after_append, Cert.ReferenceIdeal.RR.tail_vox, e83, e95]
  · rw [after_append, Cert.ReferenceIdeal.RR.tail_pad, e105]
  · rw [after_append, Cert.ReferenceIdeal.RR.tail_mask, e95]
  · rw [after_append, Cert.ReferenceIdeal.RR.tail_center, e115]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono
    (fun _ h c => (h c Cert.ReferenceIdeal.main_arg0).trans (Cert.ReferenceIdeal.RR.arg0_kept _))
    (Cert.ReferenceIdeal.RR.run_main (F := Ideal) m ρ),
  trivial,
  fun m ρ m' ρ' _ hagree =>
    ⟨fun c => Cert.Voxel.voxOut (Cert.KernelIdeal.KV.vox m c) (Cert.KernelIdeal.KV.cnt m c),
     fun c => Cert.Voxel.padOut (Cert.KernelIdeal.KV.ucoord m c),
     fun c => Cert.Voxel.maskOut (Cert.KernelIdeal.KV.cnt m c),
     fun c => Cert.KernelIdeal.Gen.V m c Cert.KernelIdeal.main_v115,
     Cert.KernelIdeal.KV.run m ρ,
     (θ_run Cert.ReferenceIdeal.defs _ _).mono
       (fun _ h c =>
         ⟨(h c Cert.ReferenceIdeal.main_v136).trans (reference_results m m' c (hagree c)).1,
          (h c Cert.ReferenceIdeal.main_v137).trans (reference_results m m' c (hagree c)).2.1,
          (h c Cert.ReferenceIdeal.main_v121).trans (reference_results m m' c (hagree c)).2.2.1,
          (h c Cert.ReferenceIdeal.main_v115).trans (reference_results m m' c (hagree c)).2.2.2,
          (h c Cert.ReferenceIdeal.main_arg0).trans (Cert.ReferenceIdeal.RR.arg0_kept _)⟩)
       (Cert.ReferenceIdeal.RR.run_main (F := Ideal) m' ρ')⟩⟩

end Cert.Proof

end
